-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x325x64x256 : Shape := ⟨4, ![8, 325, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S8x325x64x256 : S_.BroadcastsInDim S8x325x64x256 (![] : Fin 0 → Fin S8x325x64x256.rank)
  reducesTo_S8x325x64x256_S_d0_1_2_3 : S8x325x64x256.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x325x64x256 .f32) (main_arg1 : FVec F S768x256 .f32) (main_arg2 : FVec F S768 .f32) (main_arg3 : FVec F S256x256 .f32) (main_arg4 : FVec F S256 .f32) : IVec S_ 1 :=
  let main_v0 : FVec F S8x325x64x256 .f32 := Host.absf main_arg0
  let main_cst : FVec F S_ .f32 := constant S_ .f32 0x7F800000#32
  let main_v1 : FVec F S8x325x64x256 .f32 := broadcastInDim S8x325x64x256 ![] bcast_S_S8x325x64x256 main_cst
  let main_v2 : IVec S8x325x64x256 1 := cmpf .olt main_v0 main_v1
  let main_c : IVec S_ 1 := constantI S_ 1 1#1
  let main_v3 : IVec S_ 1 := (fun x v => Host.reduce IntOp.andi x v reducesTo_S8x325x64x256_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S8x325x64x256 : Shape := ⟨4, ![8, 325, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S2600x64x256 : Shape := ⟨3, ![2600, 64, 256]⟩
abbrev S1x768 : Shape := ⟨2, ![1, 768]⟩
abbrev S1x256 : Shape := ⟨2, ![1, 256]⟩
abbrev S26x64x256 : Shape := ⟨3, ![26, 64, 256]⟩
abbrev S1664x256 : Shape := ⟨2, ![1664, 256]⟩
abbrev S1664x768 : Shape := ⟨2, ![1664, 768]⟩
abbrev S26x64x8x32 : Shape := ⟨4, ![26, 64, 8, 32]⟩
abbrev S26x8x64x32 : Shape := ⟨4, ![26, 8, 64, 32]⟩
abbrev S208x64x32 : Shape := ⟨3, ![208, 64, 32]⟩
abbrev S208x64x64 : Shape := ⟨3, ![208, 64, 64]⟩
abbrev S208x64 : Shape := ⟨2, ![208, 64]⟩
abbrev S208x64x1 : Shape := ⟨3, ![208, 64, 1]⟩

abbrev nBuf : Space → Nat
  | .hbm => 10
  | .vmem => 8
  | .smem => 0
  | _ => 0

abbrev bufTy : (tb : Table) → Fin (tcTables nBuf tb) → BufTy
  | .hbm, ⟨0, _⟩ => ⟨S8x325x64x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S2600x64x256, .f32⟩
  | .hbm, ⟨6, _⟩ => ⟨S1x768, .f32⟩
  | .hbm, ⟨7, _⟩ => ⟨S1x256, .f32⟩
  | .hbm, ⟨8, _⟩ => ⟨S2600x64x256, .f32⟩
  | .hbm, ⟨9, _⟩ => ⟨S8x325x64x256, .f32⟩
  | .local _ .vmem, ⟨0, _⟩ => ⟨S26x64x256, .f32⟩
  | .local _ .vmem, ⟨1, _⟩ => ⟨S26x64x256, .f32⟩
  | .local _ .vmem, ⟨2, _⟩ => ⟨S768x256, .f32⟩
  | .local _ .vmem, ⟨3, _⟩ => ⟨S1x768, .f32⟩
  | .local _ .vmem, ⟨4, _⟩ => ⟨S256x256, .f32⟩
  | .local _ .vmem, ⟨5, _⟩ => ⟨S1x256, .f32⟩
  | .local _ .vmem, ⟨6, _⟩ => ⟨S26x64x256, .f32⟩
  | .local _ .vmem, ⟨7, _⟩ => ⟨S26x64x256, .f32⟩
  | _, _ => ⟨S8x325x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S26x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S26x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x325x64x256_S2600x64x256 : S8x325x64x256.ShapeCasts S2600x64x256
  shapeCasts_S768_S1x768 : S768.ShapeCasts S1x768
  shapeCasts_S256_S1x256 : S256.ShapeCasts S1x256
  inb_S26x64x256_S26x64x256_0_0_0 : ∀ a, (![0, 0, 0] : Fin 3 → Nat) a + S26x64x256.size a ≤ S26x64x256.size a
  h_S26x64x256 : 0 < S26x64x256.numel
  shapeCasts_S26x64x256_S26x64x256 : S26x64x256.ShapeCasts S26x64x256
  shapeCasts_S26x64x256_S1664x256 : S26x64x256.ShapeCasts S1664x256
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1664x768 : S1x768.Broadcasts S1664x768
  slices_S1664x768_o0_0_S1664x256 : S1664x768.Slices ![0, 0] S1664x256
  slices_S1664x768_o0_256_S1664x256 : S1664x768.Slices ![0, 256] S1664x256
  slices_S1664x768_o0_512_S1664x256 : S1664x768.Slices ![0, 512] S1664x256
  shapeCasts_S1664x256_S26x64x256 : S1664x256.ShapeCasts S26x64x256
  shapeCasts_S26x64x256_S26x64x8x32 : S26x64x256.ShapeCasts S26x64x8x32
  transposes_S26x64x8x32_p0_2_1_3_S26x8x64x32 : S26x64x8x32.Transposes [0, 2, 1, 3] S26x8x64x32
  shapeCasts_S26x8x64x32_S208x64x32 : S26x8x64x32.ShapeCasts S208x64x32
  reduces_S208x64x64_S208x64 : S208x64x64.Reduces [2] S208x64
  shapeCasts_S208x64_S208x64x1 : S208x64.ShapeCasts S208x64x1
  broadcasts_S208x64x1_S208x64x64 : S208x64x1.Broadcasts S208x64x64
  shapeCasts_S208x64x32_S26x8x64x32 : S208x64x32.ShapeCasts S26x8x64x32
  transposes_S26x8x64x32_p0_2_1_3_S26x64x8x32 : S26x8x64x32.Transposes [0, 2, 1, 3] S26x64x8x32
  shapeCasts_S26x64x8x32_S26x64x256 : S26x64x8x32.ShapeCasts S26x64x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1664x256 : S1x256.Broadcasts S1664x256
  shapeCasts_S2600x64x256_S8x325x64x256 : S2600x64x256.ShapeCasts S8x325x64x256
  dot_S1664x256_S768x256_S1664x768_1_1_0_0_n_n_wf : DotDims.WF S1664x256 S768x256 S1664x768 [1] [1] [0] [0] [] []
  dot_S208x64x32_S208x64x32_S208x64x64_2_2_1_1_0_0_wf : DotDims.WF S208x64x32 S208x64x32 S208x64x64 [2] [2] [1] [1] [0] [0]
  dot_S208x64x64_S208x64x32_S208x64x32_2_1_1_2_0_0_wf : DotDims.WF S208x64x64 S208x64x32 S208x64x32 [2] [1] [1] [2] [0] [0]
  dot_S1664x256_S256x256_S1664x256_1_1_0_0_n_n_wf : DotDims.WF S1664x256 S256x256 S1664x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S26x64x256.size a ≤ S2600x64x256.size a
  hwx0_0 : ∀ i : grid0.Coords, EltTy.bits .f32 = 32 ∨ (Rect.block (s := S2600x64x256) S26x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S26x64x256.size a ≤ S2600x64x256.size a
  hwx0_5 : ∀ i : grid0.Coords, EltTy.bits .f32 = 32 ∨ (Rect.block (s := S2600x64x256) S26x64x256.size (cc0_transform_5 i) (hinb0_5 i)).WholeWords (EltTy.packing .f32)

variable [Facts₀]

def dot_S1664x256_S768x256_S1664x768_1_1_0_0_n_n : DotDims S1664x256 S768x256 S1664x768 where
  lhsContracting := [1]
  rhsContracting := [1]
  lhsNonContracting := [0]
  rhsNonContracting := [0]
  lhsBatch := []
  rhsBatch := []
  wf := dot_S1664x256_S768x256_S1664x768_1_1_0_0_n_n_wf
def dot_S208x64x32_S208x64x32_S208x64x64_2_2_1_1_0_0 : DotDims S208x64x32 S208x64x32 S208x64x64 where
  lhsContracting := [2]
  rhsContracting := [2]
  lhsNonContracting := [1]
  rhsNonContracting := [1]
  lhsBatch := [0]
  rhsBatch := [0]
  wf := dot_S208x64x32_S208x64x32_S208x64x64_2_2_1_1_0_0_wf
def dot_S208x64x64_S208x64x32_S208x64x32_2_1_1_2_0_0 : DotDims S208x64x64 S208x64x32 S208x64x32 where
  lhsContracting := [2]
  rhsContracting := [1]
  lhsNonContracting := [1]
  rhsNonContracting := [2]
  lhsBatch := [0]
  rhsBatch := [0]
  wf := dot_S208x64x64_S208x64x32_S208x64x32_2_1_1_2_0_0_wf
def dot_S1664x256_S256x256_S1664x256_1_1_0_0_n_n : DotDims S1664x256 S256x256 S1664x256 where
  lhsContracting := [1]
  rhsContracting := [1]
  lhsNonContracting := [0]
  rhsNonContracting := [0]
  lhsBatch := []
  rhsBatch := []
  wf := dot_S1664x256_S256x256_S1664x256_1_1_0_0_n_n_wf

abbrev win0_0 : Pipeline.Window sig grid0 :=
  Pipeline.Window.ofSpec (Memref.whole main_v0) S26x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S26x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x325x64x256 : Shape := ⟨4, ![8, 325, 64, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S2600x64x256 : Shape := ⟨3, ![2600, 64, 256]⟩
abbrev S2600x64x768 : Shape := ⟨3, ![2600, 64, 768]⟩
abbrev S1x1x768 : Shape := ⟨3, ![1, 1, 768]⟩
abbrev S2600x64x3x8x32 : Shape := ⟨5, ![2600, 64, 3, 8, 32]⟩
abbrev S3x2600x8x64x32 : Shape := ⟨5, ![3, 2600, 8, 64, 32]⟩
abbrev S1x2600x8x64x32 : Shape := ⟨5, ![1, 2600, 8, 64, 32]⟩
abbrev S2600x8x64x32 : Shape := ⟨4, ![2600, 8, 64, 32]⟩
abbrev S2600x8x64x64 : Shape := ⟨4, ![2600, 8, 64, 64]⟩
abbrev S_ : Shape := ⟨0, ![]⟩
abbrev S2600x8x64 : Shape := ⟨3, ![2600, 8, 64]⟩
abbrev S2600x8x64x1 : Shape := ⟨4, ![2600, 8, 64, 1]⟩
abbrev S2600x64x8x32 : Shape := ⟨4, ![2600, 64, 8, 32]⟩
abbrev S1x1x256 : Shape := ⟨3, ![1, 1, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x325x64x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S2600x64x256, .f32⟩
  | .hbm, ⟨6, _⟩ => ⟨S2600x64x768, .f32⟩
  | .hbm, ⟨7, _⟩ => ⟨S1x1x768, .f32⟩
  | .hbm, ⟨8, _⟩ => ⟨S2600x64x768, .f32⟩
  | .hbm, ⟨9, _⟩ => ⟨S2600x64x768, .f32⟩
  | .hbm, ⟨10, _⟩ => ⟨S2600x64x3x8x32, .f32⟩
  | .hbm, ⟨11, _⟩ => ⟨S3x2600x8x64x32, .f32⟩
  | .hbm, ⟨12, _⟩ => ⟨S1x2600x8x64x32, .f32⟩
  | .hbm, ⟨13, _⟩ => ⟨S2600x8x64x32, .f32⟩
  | .hbm, ⟨14, _⟩ => ⟨S1x2600x8x64x32, .f32⟩
  | .hbm, ⟨15, _⟩ => ⟨S2600x8x64x32, .f32⟩
  | .hbm, ⟨16, _⟩ => ⟨S1x2600x8x64x32, .f32⟩
  | .hbm, ⟨17, _⟩ => ⟨S2600x8x64x32, .f32⟩
  | .hbm, ⟨18, _⟩ => ⟨S2600x8x64x64, .f32⟩
  | .hbm, ⟨19, _⟩ => ⟨S_, .f32⟩
  | .hbm, ⟨20, _⟩ => ⟨S2600x8x64x64, .f32⟩
  | .hbm, ⟨21, _⟩ => ⟨S2600x8x64x64, .f32⟩
  | .hbm, ⟨22, _⟩ => ⟨S_, .f32⟩
  | .hbm, ⟨23, _⟩ => ⟨S2600x8x64, .f32⟩
  | .hbm, ⟨24, _⟩ => ⟨S_, .f32⟩
  | .hbm, ⟨25, _⟩ => ⟨S2600x8x64, .f32⟩
  | .hbm, ⟨26, _⟩ => ⟨S2600x8x64, .f32⟩
  | .hbm, ⟨27, _⟩ => ⟨S2600x8x64x1, .f32⟩
  | .hbm, ⟨28, _⟩ => ⟨S2600x8x64x64, .f32⟩
  | .hbm, ⟨29, _⟩ => ⟨S2600x8x64x64, .f32⟩
  | .hbm, ⟨30, _⟩ => ⟨S2600x8x64x64, .f32⟩
  | .hbm, ⟨31, _⟩ => ⟨S_, .f32⟩
  | .hbm, ⟨32, _⟩ => ⟨S2600x8x64, .f32⟩
  | .hbm, ⟨33, _⟩ => ⟨S2600x8x64x1, .f32⟩
  | .hbm, ⟨34, _⟩ => ⟨S2600x8x64x64, .f32⟩
  | .hbm, ⟨35, _⟩ => ⟨S2600x8x64x64, .f32⟩
  | .hbm, ⟨36, _⟩ => ⟨S2600x8x64x32, .f32⟩
  | .hbm, ⟨37, _⟩ => ⟨S2600x64x8x32, .f32⟩
  | .hbm, ⟨38, _⟩ => ⟨S2600x64x256, .f32⟩
  | .hbm, ⟨39, _⟩ => ⟨S2600x64x256, .f32⟩
  | .hbm, ⟨40, _⟩ => ⟨S1x1x256, .f32⟩
  | .hbm, ⟨41, _⟩ => ⟨S2600x64x256, .f32⟩
  | .hbm, ⟨42, _⟩ => ⟨S2600x64x256, .f32⟩
  | .hbm, ⟨43, _⟩ => ⟨S8x325x64x256, .f32⟩
  | _, _ => ⟨S8x325x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  shapeCasts_S8x325x64x256_S2600x64x256 : S8x325x64x256.ShapeCasts S2600x64x256
  bcast_S768_S1x1x768_2 : S768.BroadcastsInDim S1x1x768 (![2] : Fin 1 → Fin S1x1x768.rank)
  bcast_S1x1x768_S2600x64x768_0_1_2 : S1x1x768.BroadcastsInDim S2600x64x768 (![0, 1, 2] : Fin 3 → Fin S2600x64x768.rank)
  shapeCasts_S2600x64x768_S2600x64x3x8x32 : S2600x64x768.ShapeCasts S2600x64x3x8x32
  transposes_S2600x64x3x8x32_S3x2600x8x64x32_2_0_3_1_4 : S2600x64x3x8x32.Transposes [2, 0, 3, 1, 4] S3x2600x8x64x32
  slices_S3x2600x8x64x32_S1x2600x8x64x32_0_0_0_0_0 : S3x2600x8x64x32.Slices ![0, 0, 0, 0, 0] S1x2600x8x64x32
  shapeCasts_S1x2600x8x64x32_S2600x8x64x32 : S1x2600x8x64x32.ShapeCasts S2600x8x64x32
  slices_S3x2600x8x64x32_S1x2600x8x64x32_1_0_0_0_0 : S3x2600x8x64x32.Slices ![1, 0, 0, 0, 0] S1x2600x8x64x32
  slices_S3x2600x8x64x32_S1x2600x8x64x32_2_0_0_0_0 : S3x2600x8x64x32.Slices ![2, 0, 0, 0, 0] S1x2600x8x64x32
  bcast_S_S2600x8x64x64 : S_.BroadcastsInDim S2600x8x64x64 (![] : Fin 0 → Fin S2600x8x64x64.rank)
  reducesTo_S2600x8x64x64_S2600x8x64_d3 : S2600x8x64x64.ReducesTo [3] S2600x8x64
  h_S_ : 0 < S_.numel
  bcast_S_S2600x8x64 : S_.BroadcastsInDim S2600x8x64 (![] : Fin 0 → Fin S2600x8x64.rank)
  bcast_S2600x8x64_S2600x8x64x1_0_1_2 : S2600x8x64.BroadcastsInDim S2600x8x64x1 (![0, 1, 2] : Fin 3 → Fin S2600x8x64x1.rank)
  bcast_S2600x8x64x1_S2600x8x64x64_0_1_2_3 : S2600x8x64x1.BroadcastsInDim S2600x8x64x64 (![0, 1, 2, 3] : Fin 4 → Fin S2600x8x64x64.rank)
  transposes_S2600x8x64x32_S2600x64x8x32_0_2_1_3 : S2600x8x64x32.Transposes [0, 2, 1, 3] S2600x64x8x32
  shapeCasts_S2600x64x8x32_S2600x64x256 : S2600x64x8x32.ShapeCasts S2600x64x256
  bcast_S256_S1x1x256_2 : S256.BroadcastsInDim S1x1x256 (![2] : Fin 1 → Fin S1x1x256.rank)
  bcast_S1x1x256_S2600x64x256_0_1_2 : S1x1x256.BroadcastsInDim S2600x64x256 (![0, 1, 2] : Fin 3 → Fin S2600x64x256.rank)
  shapeCasts_S2600x64x256_S8x325x64x256 : S2600x64x256.ShapeCasts S8x325x64x256
  dot_S2600x64x256_S768x256_S2600x64x768_2_1_01_0_n_n_wf : DotDims.WF S2600x64x256 S768x256 S2600x64x768 [2] [1] [0, 1] [0] [] []
  dot_S2600x8x64x32_S2600x8x64x32_S2600x8x64x64_3_3_2_2_01_01_wf : DotDims.WF S2600x8x64x32 S2600x8x64x32 S2600x8x64x64 [3] [3] [2] [2] [0, 1] [0, 1]
  dot_S2600x8x64x64_S2600x8x64x32_S2600x8x64x32_3_2_2_3_01_01_wf : DotDims.WF S2600x8x64x64 S2600x8x64x32 S2600x8x64x32 [3] [2] [2] [3] [0, 1] [0, 1]
  dot_S2600x64x256_S256x256_S2600x64x256_2_1_01_0_n_n_wf : DotDims.WF S2600x64x256 S256x256 S2600x64x256 [2] [1] [0, 1] [0] [] []

variable [Facts₀]

def dot_S2600x64x256_S768x256_S2600x64x768_2_1_01_0_n_n : DotDims S2600x64x256 S768x256 S2600x64x768 where
  lhsContracting := [2]
  rhsContracting := [1]
  lhsNonContracting := [0, 1]
  rhsNonContracting := [0]
  lhsBatch := []
  rhsBatch := []
  wf := dot_S2600x64x256_S768x256_S2600x64x768_2_1_01_0_n_n_wf
def dot_S2600x8x64x32_S2600x8x64x32_S2600x8x64x64_3_3_2_2_01_01 : DotDims S2600x8x64x32 S2600x8x64x32 S2600x8x64x64 where
  lhsContracting := [3]
  rhsContracting := [3]
  lhsNonContracting := [2]
  rhsNonContracting := [2]
  lhsBatch := [0, 1]
  rhsBatch := [0, 1]
  wf := dot_S2600x8x64x32_S2600x8x64x32_S2600x8x64x64_3_3_2_2_01_01_wf
def dot_S2600x8x64x64_S2600x8x64x32_S2600x8x64x32_3_2_2_3_01_01 : DotDims S2600x8x64x64 S2600x8x64x32 S2600x8x64x32 where
  lhsContracting := [3]
  rhsContracting := [2]
  lhsNonContracting := [2]
  rhsNonContracting := [3]
  lhsBatch := [0, 1]
  rhsBatch := [0, 1]
  wf := dot_S2600x8x64x64_S2600x8x64x32_S2600x8x64x32_3_2_2_3_01_01_wf
def dot_S2600x64x256_S256x256_S2600x64x256_2_1_01_0_n_n : DotDims S2600x64x256 S256x256 S2600x64x256 where
  lhsContracting := [2]
  rhsContracting := [1]
  lhsNonContracting := [0, 1]
  rhsNonContracting := [0]
  lhsBatch := []
  rhsBatch := []
  wf := dot_S2600x64x256_S256x256_S2600x64x256_2_1_01_0_n_n_wf

class Facts : Prop extends Facts₀ where

variable [Facts]
-- ==== Proof.AttnSpec.lean ====
/-
  Multi-head self-attention on one batch row, as a function on the extended reals.

  For one row of the batch, `X : 64 × 256` (sequence position × model width), the fused projection gives
  `Q s e = (∑ d, X s d · W e d) + bq e` for the 768 columns `e`: columns `h·32 + j` are head `h`'s queries,
  `256 + h·32 + j` its keys, `512 + h·32 + j` its values (8 heads of width 32). A head's logits are the
  query–key products scaled by the f32 word nearest `32^(-1/2)`; one program scales the queries before the product
  (`logitK`), the other scales the product (`logitR`). A softmax over the key position (the row maximum taken from
  `-∞`, exponentials, their sum, the quotient), the weighted sum of the values, the heads laid side by side, and the
  output projection `(∑ d, C s d · Wp e d) + bp e` follow, the same in both.

  The two logits agree when the projected values are real numbers: then the scale, a real number, moves across the
  finite sum by distributivity. That is the one place where finiteness of the inputs is used.
-/
import Idealize.ShloMosaic.PureOps.Ideal.Laws
import Idealize.ShloMosaic.Lib.ValueIdx

noncomputable section

namespace Cert.AttnSpec

open Idealize.ShloMosaic Idealize.ShloMosaic.ValueIdx

/-- The softmax scale both programs write: the f32 word nearest `32^(-1/2)`. -/
abbrev scale : EReal := Ideal.ofBits .f32 0x3E3504F3#32
/-- The value the row maximum starts from: the f32 pattern of `-∞`. -/
abbrev negInf : EReal := Ideal.ofBits .f32 0xFF800000#32

/-- Column of head `h`'s query lane `j` among the 768 projected columns. -/
def qcol (h : Fin 8) (j : Fin 32) : Fin 768 := ⟨h.val * 32 + j.val, by have := h.isLt; have := j.isLt; omega⟩
/-- Column of head `h`'s key lane `j`. -/
def kcol (h : Fin 8) (j : Fin 32) : Fin 768 := ⟨256 + (h.val * 32 + j.val), by have := h.isLt; have := j.isLt; omega⟩
/-- Column of head `h`'s value lane `j`. -/
def vcol (h : Fin 8) (j : Fin 32) : Fin 768 := ⟨512 + (h.val * 32 + j.val), by have := h.isLt; have := j.isLt; omega⟩
/-- The head a model-width column belongs to, and its lane inside the head. -/
def headOf (d : Fin 256) : Fin 8 := ⟨d.val / 32, by have := d.isLt; omega⟩
def laneOf (d : Fin 256) : Fin 32 := ⟨d.val % 32, by have := d.isLt; omega⟩

/-- The fused query/key/value projection of one batch row. -/
def qkv (X : Fin 64 → Fin 256 → EReal) (W : Fin 768 → Fin 256 → EReal) (bq : Fin 768 → EReal)
    (s : Fin 64) (e : Fin 768) : EReal :=
  (∑ d : Fin 256, X s d * W e d) + bq e

/-- A head's logits with the queries scaled before the product. -/
def logitK (Q : Fin 64 → Fin 768 → EReal) (h : Fin 8) (s t : Fin 64) : EReal :=
  ∑ j : Fin 32, (Q s (qcol h j) * scale) * Q t (kcol h j)
/-- A head's logits with the product scaled. -/
def logitR (Q : Fin 64 → Fin 768 → EReal) (h : Fin 8) (s t : Fin 64) : EReal :=
  (∑ j : Fin 32, Q s (qcol h j) * Q t (kcol h j)) * scale

/-- The maximum of a row of logits, taken from `-∞`. -/
def rowMax (L : Fin 64 → EReal) : EReal := (Finset.univ : Finset (Fin 64)).fold max negInf L
/-- The softmax of a row of logits at key position `t`. -/
def soft (L : Fin 64 → EReal) (t : Fin 64) : EReal :=
  Ideal.div (Ideal.exp (L t - rowMax L)) (∑ u : Fin 64, Ideal.exp (L u - rowMax L))

/-- The attention output of head `h` at query position `s`, lane `j`. -/
def ctx (Q : Fin 64 → Fin 768 → EReal) (Lg : Fin 8 → Fin 64 → Fin 64 → EReal) (s : Fin 64) (h : Fin 8) (j : Fin 32) : EReal :=
  ∑ t : Fin 64, soft (Lg h s) t * Q t (vcol h j)

/-- The heads laid side by side along the model width. -/
def merged (Q : Fin 64 → Fin 768 → EReal) (Lg : Fin 8 → Fin 64 → Fin 64 → EReal) (s : Fin 64) (d : Fin 256) : EReal :=
  ctx Q Lg s (headOf d) (laneOf d)

/-- The output projection. -/
def proj (Wp : Fin 256 → Fin 256 → EReal) (bp : Fin 256 → EReal) (C : Fin 64 → Fin 256 → EReal) (s : Fin 64) (e : Fin 256) : EReal :=
  (∑ d : Fin 256, C s d * Wp e d) + bp e

/-- One batch row through the whole layer, queries scaled first. -/
def rowK (X : Fin 64 → Fin 256 → EReal) (W : Fin 768 → Fin 256 → EReal) (bq : Fin 768 → EReal)
    (Wp : Fin 256 → Fin 256 → EReal) (bp : Fin 256 → EReal) (s : Fin 64) (e : Fin 256) : EReal :=
  proj Wp bp (merged (qkv X W bq) (logitK (qkv X W bq))) s e
/-- One batch row through the whole layer, products scaled. -/
def rowR (X : Fin 64 → Fin 256 → EReal) (W : Fin 768 → Fin 256 → EReal) (bq : Fin 768 → EReal)
    (Wp : Fin 256 → Fin 256 → EReal) (bp : Fin 256 → EReal) (s : Fin 64) (e : Fin 256) : EReal :=
  proj Wp bp (merged (qkv X W bq) (logitR (qkv X W bq))) s e

abbrev S2600x64x256 : Shape := ⟨3, ![2600, 64, 256]⟩
abbrev S768x256 : Shape := ⟨2, ![768, 256]⟩
abbrev S768 : Shape := ⟨1, ![768]⟩
abbrev S256x256 : Shape := ⟨2, ![256, 256]⟩
abbrev S256 : Shape := ⟨1, ![256]⟩

/-- The whole layer on the [2600, 64, 256] array of batch rows, queries scaled first: entry `(b, s, e)` is row `b`'s
    result at `(s, e)`. -/
def attnK (xf : S2600x64x256.Idx → EReal) (W : S768x256.Idx → EReal) (bq : S768.Idx → EReal)
    (Wp : S256x256.Idx → EReal) (bp : S256.Idx → EReal) : S2600x64x256.Idx → EReal := fun i =>
  rowK (fun s d => xf (ix3 (i 0) s d)) (fun e d => W (ix2 e d)) (fun e => bq (ix1 e)) (fun e d => Wp (ix2 e d))
    (fun e => bp (ix1 e)) (i 1) (i 2)
/-- The same with the products scaled. -/
def attnR (xf : S2600x64x256.Idx → EReal) (W : S768x256.Idx → EReal) (bq : S768.Idx → EReal)
    (Wp : S256x256.Idx → EReal) (bp : S256.Idx → EReal) : S2600x64x256.Idx → EReal := fun i =>
  rowR (fun s d => xf (ix3 (i 0) s d)) (fun e d => W (ix2 e d)) (fun e => bq (ix1 e)) (fun e d => Wp (ix2 e d))
    (fun e => bp (ix1 e)) (i 1) (i 2)

/-! ## The scale moves across the sum when the projected values are real -/

/-- The scale word is a normal f32 pattern, so it denotes a real number. -/
theorem scale_real : ∃ r : ℝ, scale = (r : EReal) := by
  unfold scale Ideal.ofBits Ideal.ieee
  simp only []
  rw [if_neg (by decide), if_neg (by decide)]
  exact ⟨_, rfl⟩

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real inputs give real projected values. -/
theorem qkv_real {X : Fin 64 → Fin 256 → EReal} {W : Fin 768 → Fin 256 → EReal} {bq : Fin 768 → EReal}
    (hX : ∀ s d, ∃ r : ℝ, X s d = (r : EReal)) (hW : ∀ e d, ∃ r : ℝ, W e d = (r : EReal)) (hb : ∀ e, ∃ r : ℝ, bq e = (r : EReal))
    (s : Fin 64) (e : Fin 768) : ∃ r : ℝ, qkv X W bq s e = (r : EReal) := by
  choose x hx using hX
  choose w hw using hW
  choose b hb' using hb
  refine ⟨(∑ d : Fin 256, x s d * w e d) + b e, ?_⟩
  unfold qkv
  rw [EReal.coe_add, coe_sum, hb']
  congr 1
  exact Finset.sum_congr rfl fun d _ => by rw [hx, hw, EReal.coe_mul]

/-- With real projected values the two ways of scaling give the same logits. -/
theorem logitK_eq_logitR {Q : Fin 64 → Fin 768 → EReal} (hQ : ∀ s e, ∃ r : ℝ, Q s e = (r : EReal)) :
    logitK Q = logitR Q := by
  choose q hq using hQ
  obtain ⟨c, hc⟩ := scale_real
  funext h s t
  unfold logitK logitR
  rw [hc]
  have e1 : ∀ j : Fin 32, (Q s (qcol h j) * (c : EReal)) * Q t (kcol h j) = ((q s (qcol h j) * c * q t (kcol h j) : ℝ) : EReal) := fun j => by
    rw [hq, hq, EReal.coe_mul, EReal.coe_mul]
  have e2 : ∀ j : Fin 32, Q s (qcol h j) * Q t (kcol h j) = ((q s (qcol h j) * q t (kcol h j) : ℝ) : EReal) := fun j => by
    rw [hq, hq, EReal.coe_mul]
  rw [Finset.sum_congr rfl fun j _ => e1 j, Finset.sum_congr rfl fun j _ => e2 j, ← coe_sum, ← coe_sum, ← EReal.coe_mul,
    Finset.sum_mul]
  exact congrArg _ (Finset.sum_congr rfl fun j _ => by ring)

/-- So the two readings of a batch row agree on real inputs. -/
theorem rowK_eq_rowR {X : Fin 64 → Fin 256 → EReal} {W : Fin 768 → Fin 256 → EReal} {bq : Fin 768 → EReal}
    (hX : ∀ s d, ∃ r : ℝ, X s d = (r : EReal)) (hW : ∀ e d, ∃ r : ℝ, W e d = (r : EReal)) (hb : ∀ e, ∃ r : ℝ, bq e = (r : EReal))
    (Wp : Fin 256 → Fin 256 → EReal) (bp : Fin 256 → EReal) : rowK X W bq Wp bp = rowR X W bq Wp bp := by
  unfold rowK rowR
  rw [logitK_eq_logitR (qkv_real hX hW hb)]

/-- And the two readings of the whole array, when the activations, the fused weight and its bias are real. -/
theorem attnK_eq_attnR (xf : S2600x64x256.Idx → EReal) (W : S768x256.Idx → EReal) (bq : S768.Idx → EReal)
    (Wp : S256x256.Idx → EReal) (bp : S256.Idx → EReal)
    (hx : ∀ i, ∃ r : ℝ, xf i = (r : EReal)) (hW : ∀ i, ∃ r : ℝ, W i = (r : EReal)) (hb : ∀ i, ∃ r : ℝ, bq i = (r : EReal)) :
    attnK xf W bq Wp bp = attnR xf W bq Wp bp := by
  funext i
  unfold attnK attnR
  rw [rowK_eq_rowR (fun s d => hx _) (fun e d => hW _) (fun e => hb _)]

end Cert.AttnSpec

end
-- ==== Proof.KernelStages.lean ====
/-
  The kernel body's arithmetic cut into three named parts, each a function of what it reads:
  `fused` — the fused query/key/value projection of the 26 × 64 = 1664 rows of a block, bias added;
  `heads` — one 256-column third of it, split into 8 heads of width 32 with the head axis moved ahead of the
  sequence axis; `attend` — scaled query–key products, the softmax over the key position, the weighted sum of the
  values, and the heads laid back side by side. The body's value before the output projection is `attend` of the
  three `heads` of `fused`, by unfolding.
-/
import proofs.«400726_j29420525978033_3_alg».proof.Proof.Gen.KernelIdeal.Skeleton

noncomputable section

namespace Cert.KernelIdeal.Stages

open Idealize.ShloMosaic Idealize.SL.Sem Cert.KernelIdeal Cert.KernelIdeal.Gen

variable {F : FTy → Type} [FloatOps F]

/-- The fused projection of a block's rows: `x · Wᵀ + b` over [1664, 768]. -/
def fused (v0 : Vec F S26x64x256 .f32) (v4 : Vec F S768x256 .f32) (v7 : Vec F S1x768 .f32) : FVec F S1664x768 .f32 :=
  addf (matmul dot_S1664x256_S768x256_S1664x768_1_1_0_0_n_n none
      (truncf .bf16 (shapeCast S1664x256 (shapeCast S26x64x256 v0 shapeCasts_S26x64x256_S26x64x256) shapeCasts_S26x64x256_S1664x256) bitsLt_bf16_f32)
      (truncf .bf16 v4 bitsLt_bf16_f32) (constant S1664x768 .f32 0x00000000#32))
    (broadcastTo S1664x768 (shapeCast S1x768 v7 shapeCasts_S1x768_S1x768) broadcasts_S1x768_S1664x768)

/-- The 256 columns from `off` on, as [26, 8, 64, 32]: batch row, head, position, lane. -/
def heads (off : Nat) (hs : S1664x768.Slices ![0, off] S1664x256) (v10 : FVec F S1664x768 .f32) : FVec F S26x8x64x32 .f32 :=
  transpose S26x8x64x32 [0, 2, 1, 3]
    (shapeCast S26x64x8x32 (shapeCast S26x64x256 (extractStridedSlice S1664x256 ![0, off] v10 hs) shapeCasts_S1664x256_S26x64x256)
      shapeCasts_S26x64x256_S26x64x8x32) transposes_S26x64x8x32_p0_2_1_3_S26x8x64x32

/-- The logits of every (batch row, head) pair: the scaled queries against the keys, over [208, 64, 64]. -/
def logits (q4 k4 : FVec F S26x8x64x32 .f32) : FVec F S208x64x64 .f32 :=
  matmul dot_S208x64x32_S208x64x32_S208x64x64_2_2_1_1_0_0 none
    (shapeCast S208x64x32 (truncf .bf16 (mulf q4 (broadcast S26x8x64x32 (Scalar.ofBits .f32 0x3E3504F3#32))) bitsLt_bf16_f32) shapeCasts_S26x8x64x32_S208x64x32)
    (shapeCast S208x64x32 (truncf .bf16 k4 bitsLt_bf16_f32) shapeCasts_S26x8x64x32_S208x64x32)
    (constant S208x64x64 .f32 0x00000000#32)

/-- The softmax of the logits over the key position. -/
def weights (v31 : FVec F S208x64x64 .f32) : FVec F S208x64x64 .f32 :=
  have v32 : FVec F S208x64 .f32 := multiReduction .maximumf [2] S208x64 v31 0xFF800000#32 reduces_S208x64x64_S208x64 (.inl rfl) rfl
  have v34 : FVec F S208x64x64 .f32 := broadcastTo S208x64x64 (shapeCast S208x64x1 v32 shapeCasts_S208x64_S208x64x1) broadcasts_S208x64x1_S208x64x64
  have v36 : FVec F S208x64x64 .f32 := exp (subf v31 v34)
  have v37 : FVec F S208x64 .f32 := multiReduction .add [2] S208x64 v36 0x00000000#32 reduces_S208x64x64_S208x64 (.inl rfl) rfl
  have v39 : FVec F S208x64x64 .f32 := broadcastTo S208x64x64 (shapeCast S208x64x1 v37 shapeCasts_S208x64_S208x64x1) broadcasts_S208x64x1_S208x64x64
  divf v36 v39

/-- The weighted sums of the values, with the heads laid back side by side: [26, 64, 256]. -/
def combine (v40 : FVec F S208x64x64 .f32) (v4' : FVec F S26x8x64x32 .f32) : FVec F S26x64x256 .f32 :=
  shapeCast S26x64x256
    (transpose S26x64x8x32 [0, 2, 1, 3]
      (shapeCast S26x8x64x32
        (matmul dot_S208x64x64_S208x64x32_S208x64x32_2_1_1_2_0_0 none (truncf .bf16 v40 bitsLt_bf16_f32)
          (shapeCast S208x64x32 (truncf .bf16 v4' bitsLt_bf16_f32) shapeCasts_S26x8x64x32_S208x64x32) (constant S208x64x32 .f32 0x00000000#32))
        shapeCasts_S208x64x32_S26x8x64x32) transposes_S26x8x64x32_p0_2_1_3_S26x64x8x32)
    shapeCasts_S26x64x8x32_S26x64x256

/-- Attention from the three head arrays. -/
def attend (q4 k4 v4' : FVec F S26x8x64x32 .f32) : FVec F S26x64x256 .f32 :=
  combine (weights (logits q4 k4)) v4'

/-- The body's value before the output projection is `attend` of the three `heads` of `fused`. -/
theorem pay2_eq (v0 : Vec F S26x64x256 .f32) (v4 : Vec F S768x256 .f32) (v7 : Vec F S1x768 .f32) :
    k0_pay2 v0 v4 v7 = attend (heads 0 slices_S1664x768_o0_0_S1664x256 (fused v0 v4 v7))
      (heads 256 slices_S1664x768_o0_256_S1664x256 (fused v0 v4 v7)) (heads 512 slices_S1664x768_o0_512_S1664x256 (fused v0 v4 v7)) := rfl

end Cert.KernelIdeal.Stages

end
-- ==== Proof.KernelFused.lean ====
/-
  The fused projection, the split into heads and the output projection of the kernel body, each read at an index on
  the extended reals.
-/
import proofs.«400726_j29420525978033_3_alg».proof.Proof.KernelStages
import proofs.«400726_j29420525978033_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stages

open Idealize.ShloMosaic Idealize.ShloMosaic.ValueIdx Idealize.SL.Sem Cert.KernelIdeal Cert.KernelIdeal.Gen

/-! ## The two weight products read at an index

Both contract the second axis of each operand: entry `(r, e)` of the product is `∑ d, lhs (r, d) · rhs (e, d)`. -/

/-- The dimension numbers of the fused projection's product. -/
private abbrev DQ : DotDims S1664x256 S768x256 S1664x768 := dot_S1664x256_S768x256_S1664x768_1_1_0_0_n_n
/-- The dimension numbers of the output projection's product. -/
private abbrev DP : DotDims S1664x256 S256x256 S1664x256 := dot_S1664x256_S256x256_S1664x256_1_1_0_0_n_n

private theorem dq_lhs_0 (i : S1664x768.Idx) (q : DQ.contr.Idx) : (DQ.lhsIdx i q 0).val = (i 0).val := by
  unfold DotDims.lhsIdx
  rw [dif_neg (show ¬(0 : Fin S1664x256.rank) ∈ DQ.lhsBatch by decide), dif_pos (show (0 : Fin S1664x256.rank) ∈ DQ.lhsNonContracting by decide)]
  rfl
private theorem dq_lhs_1 (i : S1664x768.Idx) (q : DQ.contr.Idx) : (DQ.lhsIdx i q 1).val = (q ⟨0, by decide⟩).val :=
  DQ.lhsIdx_val_of_single rfl i q
private theorem dq_rhs_0 (i : S1664x768.Idx) (q : DQ.contr.Idx) : (DQ.rhsIdx i q 0).val = (i 1).val := by
  unfold DotDims.rhsIdx
  rw [dif_neg (show ¬(0 : Fin S768x256.rank) ∈ DQ.rhsBatch by decide), dif_pos (show (0 : Fin S768x256.rank) ∈ DQ.rhsNonContracting by decide)]
  rfl
private theorem dq_rhs_1 (i : S1664x768.Idx) (q : DQ.contr.Idx) : (DQ.rhsIdx i q 1).val = (q ⟨0, by decide⟩).val :=
  DQ.rhsIdx_val_of_single rfl i q

/-- The fused projection's product into the zero accumulator, at `(r, e)`. -/
private theorem dq_matmul_apply (x : FVec Ideal S1664x256 .bf16) (w : FVec Ideal S768x256 .bf16) (r : Fin 1664) (e : Fin 768) :
    matmul DQ none x w (constant S1664x768 .f32 0x00000000#32) (ix2 r e) = ∑ d : Fin 256, x (ix2 r d) * w (ix2 e d) := by
  simp only [matmul]
  rw [Ideal.matmul_constant_zero_apply, ← Equiv.sum_comp (ValueIdx.contrEquiv1 DQ 256 rfl rfl).symm]
  refine Finset.sum_congr rfl fun k _ => ?_
  have hk := ValueIdx.contrEquiv1_symm_val DQ 256 rfl rfl k
  have el : DQ.lhsIdx (ix2 r e) ((ValueIdx.contrEquiv1 DQ 256 rfl rfl).symm k) = ix2 r k := funext fun a => Fin.ext (by
    match a with
    | ⟨0, _⟩ => exact dq_lhs_0 _ _
    | ⟨1, _⟩ => exact (dq_lhs_1 _ _).trans hk)
  have er : DQ.rhsIdx (ix2 r e) ((ValueIdx.contrEquiv1 DQ 256 rfl rfl).symm k) = ix2 e k := funext fun a => Fin.ext (by
    match a with
    | ⟨0, _⟩ => exact dq_rhs_0 _ _
    | ⟨1, _⟩ => exact (dq_rhs_1 _ _).trans hk)
  rw [el, er]

private theorem dp_lhs_0 (i : S1664x256.Idx) (q : DP.contr.Idx) : (DP.lhsIdx i q 0).val = (i 0).val := by
  unfold DotDims.lhsIdx
  rw [dif_neg (show ¬(0 : Fin S1664x256.rank) ∈ DP.lhsBatch by decide), dif_pos (show (0 : Fin S1664x256.rank) ∈ DP.lhsNonContracting by decide)]
  rfl
private theorem dp_lhs_1 (i : S1664x256.Idx) (q : DP.contr.Idx) : (DP.lhsIdx i q 1).val = (q ⟨0, by decide⟩).val :=
  DP.lhsIdx_val_of_single rfl i q
private theorem dp_rhs_0 (i : S1664x256.Idx) (q : DP.contr.Idx) : (DP.rhsIdx i q 0).val = (i 1).val := by
  unfold DotDims.rhsIdx
  rw [dif_neg (show ¬(0 : Fin S256x256.rank) ∈ DP.rhsBatch by decide), dif_pos (show (0 : Fin S256x256.rank) ∈ DP.rhsNonContracting by decide)]
  rfl
private theorem dp_rhs_1 (i : S1664x256.Idx) (q : DP.contr.Idx) : (DP.rhsIdx i q 1).val = (q ⟨0, by decide⟩).val :=
  DP.rhsIdx_val_of_single rfl i q

/-- The output projection's product into the zero accumulator, at `(r, e)`. -/
private theorem dp_matmul_apply (x : FVec Ideal S1664x256 .bf16) (w : FVec Ideal S256x256 .bf16) (r : Fin 1664) (e : Fin 256) :
    matmul DP none x w (constant S1664x256 .f32 0x00000000#32) (ix2 r e) = ∑ d : Fin 256, x (ix2 r d) * w (ix2 e d) := by
  simp only [matmul]
  rw [Ideal.matmul_constant_zero_apply, ← Equiv.sum_comp (ValueIdx.contrEquiv1 DP 256 rfl rfl).symm]
  refine Finset.sum_congr rfl fun k _ => ?_
  have hk := ValueIdx.contrEquiv1_symm_val DP 256 rfl rfl k
  have el : DP.lhsIdx (ix2 r e) ((ValueIdx.contrEquiv1 DP 256 rfl rfl).symm k) = ix2 r k := funext fun a => Fin.ext (by
    match a with
    | ⟨0, _⟩ => exact dp_lhs_0 _ _
    | ⟨1, _⟩ => exact (dp_lhs_1 _ _).trans hk)
  have er : DP.rhsIdx (ix2 r e) ((ValueIdx.contrEquiv1 DP 256 rfl rfl).symm k) = ix2 e k := funext fun a => Fin.ext (by
    match a with
    | ⟨0, _⟩ => exact dp_rhs_0 _ _
    | ⟨1, _⟩ => exact (dp_rhs_1 _ _).trans hk)
  rw [el, er]

/-! ## The layout steps read at an index -/

/-- A block laid out as 1664 rows: row `b·64 + s` is position `s` of batch row `b`. -/
private theorem rows_apply {α : Type} (x : S26x64x256.Idx → α) (b : Fin 26) (s : Fin 64) (d : Fin 256) (r : Fin 1664)
    (hr : r.val = b.val * 64 + s.val) :
    shapeCast S1664x256 x shapeCasts_S26x64x256_S1664x256 (ix2 r d) = x (ix3 b s d) := by
  refine shapeCast_apply x shapeCasts_S26x64x256_S1664x256 (ix2 r d) (ix3 b s d) ?_
  rw [Shape.rowMajor_val_three, Shape.rowMajor_val_two]
  show (b.val * 64 + s.val) * 256 + d.val = r.val * 256 + d.val
  rw [hr]

/-- And back: position `s` of batch row `b` is row `b·64 + s`. -/
private theorem unrows_apply {α : Type} (x : S1664x256.Idx → α) (b : Fin 26) (s : Fin 64) (d : Fin 256) (r : Fin 1664)
    (hr : r.val = b.val * 64 + s.val) :
    shapeCast S26x64x256 x shapeCasts_S1664x256_S26x64x256 (ix3 b s d) = x (ix2 r d) := by
  refine shapeCast_apply x shapeCasts_S1664x256_S26x64x256 (ix3 b s d) (ix2 r d) ?_
  rw [Shape.rowMajor_val_three, Shape.rowMajor_val_two]
  show r.val * 256 + d.val = (b.val * 64 + s.val) * 256 + d.val
  rw [hr]

/-- Row `b·64 + s`, column `e` of the fused projection is the projection of batch row `b` at position `s`. -/
theorem fused_apply (v0 : Vec Ideal S26x64x256 .f32) (v4 : Vec Ideal S768x256 .f32) (v7 : Vec Ideal S1x768 .f32)
    (b : Fin 26) (s : Fin 64) (e : Fin 768) (r : Fin 1664) (hr : r.val = b.val * 64 + s.val) :
    fused (F := Ideal) v0 v4 v7 (ix2 r e)
      = Cert.AttnSpec.qkv (fun s d => v0 (ix3 b s d)) (fun e d => v4 (ix2 e d)) (fun e => v7 (ix2 (0 : Fin 1) e)) s e := by
  unfold fused Cert.AttnSpec.qkv
  rw [addf_apply]
  refine congrArg₂ (· + ·) ?_ ?_
  · refine (dq_matmul_apply _ _ r e).trans (Finset.sum_congr rfl fun d _ => ?_)
    rw [truncf_apply, truncf_apply, rows_apply _ b s d r hr, shapeCast_self]
  · refine (broadcastTo_apply _ broadcasts_S1x768_S1664x768 (ix2 r e) (ix2 (0 : Fin 1) e) (fun a => ?_)).trans ?_
    · match a with
      | ⟨0, _⟩ => show 0 = if (1 : Nat) = 1 then 0 else r.val; rw [if_pos rfl]
      | ⟨1, _⟩ => show e.val = if (768 : Nat) = 1 then 0 else e.val; rw [if_neg (by decide)]
    · rw [shapeCast_self]

/-- Entry (batch row, head, position, lane) of a third of the fused projection is its row `b·64 + s`, column
    `off + h·32 + j`. -/
theorem heads_apply (off : Nat) (hs : S1664x768.Slices ![0, off] S1664x256) (v10 : FVec Ideal S1664x768 .f32)
    (b : Fin 26) (h : Fin 8) (s : Fin 64) (j : Fin 32) (r : Fin 1664) (e : Fin 768)
    (hr : r.val = b.val * 64 + s.val) (he : e.val = off + (h.val * 32 + j.val)) :
    heads (F := Ideal) off hs v10 (ix4 b h s j) = v10 (ix2 r e) := by
  have hh := h.isLt
  have hj := j.isLt
  unfold heads
  -- the head axis moves back behind the position axis
  refine (transpose_apply [0, 2, 1, 3] _ transposes_S26x64x8x32_p0_2_1_3_S26x8x64x32 (ix4 b h s j) (ix4 b s h j) (fun a => ?_)).trans ?_
  · match a with
    | ⟨0, _⟩ => rfl
    | ⟨1, _⟩ => rfl
    | ⟨2, _⟩ => rfl
    | ⟨3, _⟩ => rfl
  -- head `h`, lane `j` is column `h·32 + j` of the 256
  refine (shapeCast_apply _ shapeCasts_S26x64x256_S26x64x8x32 (ix4 b s h j) (ix3 b s (⟨h.val * 32 + j.val, by omega⟩ : Fin 256)) ?_).trans ?_
  · rw [Shape.rowMajor_val_three, Shape.rowMajor_val_four]
    show (b.val * 64 + s.val) * 256 + (h.val * 32 + j.val) = ((b.val * 64 + s.val) * 8 + h.val) * 32 + j.val
    omega
  -- position `s` of batch row `b` is row `b·64 + s`
  refine (unrows_apply _ b s (⟨h.val * 32 + j.val, by omega⟩ : Fin 256) r hr).trans ?_
  -- and the slice starts at column `off`
  refine extractStridedSlice_apply ![0, off] v10 hs (ix2 r (⟨h.val * 32 + j.val, by omega⟩ : Fin 256)) (ix2 r e) (fun a => ?_)
  match a with
  | ⟨0, _⟩ => show r.val = 0 + r.val; omega
  | ⟨1, _⟩ => show e.val = off + (h.val * 32 + j.val); exact he

/-- The output projection of the body at (batch row, position, column). -/
theorem pay1_apply (v45 : FVec Ideal S26x64x256 .f32) (x3 : Vec Ideal S256x256 .f32) (x4 : Vec Ideal S1x256 .f32)
    (b : Fin 26) (s : Fin 64) (e : Fin 256) :
    k0_pay1 (F := Ideal) v45 x3 x4 (ix3 b s e)
      = Cert.AttnSpec.proj (fun e d => x3 (ix2 e d)) (fun e => x4 (ix2 (0 : Fin 1) e)) (fun s d => v45 (ix3 b s d)) s e := by
  have hb := b.isLt
  have hs := s.isLt
  unfold k0_pay1 Cert.AttnSpec.proj
  -- position `s` of batch row `b` is row `b·64 + s` of the product
  refine (unrows_apply _ b s e (⟨b.val * 64 + s.val, by omega⟩ : Fin 1664) rfl).trans ?_
  rw [addf_apply]
  refine congrArg₂ (· + ·) ?_ ?_
  · refine (dp_matmul_apply _ _ (⟨b.val * 64 + s.val, by omega⟩ : Fin 1664) e).trans (Finset.sum_congr rfl fun d _ => ?_)
    rw [truncf_apply, truncf_apply, rows_apply _ b s d (⟨b.val * 64 + s.val, by omega⟩ : Fin 1664) rfl]
  · refine (broadcastTo_apply _ broadcasts_S1x256_S1664x256 (ix2 (⟨b.val * 64 + s.val, by omega⟩ : Fin 1664) e) (ix2 (0 : Fin 1) e) (fun a => ?_)).trans ?_
    · match a with
      | ⟨0, _⟩ => show 0 = if (1 : Nat) = 1 then 0 else b.val * 64 + s.val; rw [if_pos rfl]
      | ⟨1, _⟩ => show e.val = if (256 : Nat) = 1 then 0 else e.val; rw [if_neg (by decide)]
    · rw [shapeCast_self]

end Cert.KernelIdeal.Stages

end
-- ==== Proof.KernelAttend.lean ====
/-
  The attention part of the kernel body read at an index on the extended reals: for batch row `b`, position `s` and
  model-width column `d` (head `d / 32`, lane `d % 32`), the softmax over the key position of the scaled
  query–key products, weighting the values.
-/
import proofs.«400726_j29420525978033_3_alg».proof.Proof.KernelStages
import proofs.«400726_j29420525978033_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stages

open Idealize.ShloMosaic Idealize.ShloMosaic.ValueIdx Idealize.SL.Sem Cert.KernelIdeal Cert.KernelIdeal.Gen

/-! ## The query–key product -/

private abbrev DQK := dot_S208x64x32_S208x64x32_S208x64x64_2_2_1_1_0_0

private theorem lhs_qk_0 (i : S208x64x64.Idx) (q : DQK.contr.Idx) : (DQK.lhsIdx i q 0).val = (i 0).val := by
  unfold DotDims.lhsIdx
  rw [dif_pos (show (0 : Fin S208x64x32.rank) ∈ DQK.lhsBatch by decide)]
  rfl
private theorem lhs_qk_1 (i : S208x64x64.Idx) (q : DQK.contr.Idx) : (DQK.lhsIdx i q 1).val = (i 1).val := by
  unfold DotDims.lhsIdx
  rw [dif_neg (show ¬(1 : Fin S208x64x32.rank) ∈ DQK.lhsBatch by decide), dif_pos (show (1 : Fin S208x64x32.rank) ∈ DQK.lhsNonContracting by decide)]
  rfl
private theorem lhs_qk_2 (i : S208x64x64.Idx) (q : DQK.contr.Idx) : (DQK.lhsIdx i q 2).val = (q ⟨0, by decide⟩).val :=
  DQK.lhsIdx_val_of_single rfl i q
private theorem rhs_qk_0 (i : S208x64x64.Idx) (q : DQK.contr.Idx) : (DQK.rhsIdx i q 0).val = (i 0).val := by
  unfold DotDims.rhsIdx
  rw [dif_pos (show (0 : Fin S208x64x32.rank) ∈ DQK.rhsBatch by decide)]
  rfl
private theorem rhs_qk_1 (i : S208x64x64.Idx) (q : DQK.contr.Idx) : (DQK.rhsIdx i q 1).val = (i 2).val := by
  unfold DotDims.rhsIdx
  rw [dif_neg (show ¬(1 : Fin S208x64x32.rank) ∈ DQK.rhsBatch by decide), dif_pos (show (1 : Fin S208x64x32.rank) ∈ DQK.rhsNonContracting by decide)]
  rfl
private theorem rhs_qk_2 (i : S208x64x64.Idx) (q : DQK.contr.Idx) : (DQK.rhsIdx i q 2).val = (q ⟨0, by decide⟩).val :=
  DQK.rhsIdx_val_of_single rfl i q

/-- The batched product of two [208, 64, 32] arrays over their last axes, into the zero array, at (g, s, u). -/
private theorem matmul_qk_apply (x y : FVec Ideal S208x64x32 .bf16) (g : Fin 208) (s u : Fin 64) :
    FloatOps.matmul DQK none x y (constant S208x64x64 .f32 0x00000000#32) (ix3 g s u)
      = ∑ j : Fin 32, x (ix3 g s j) * y (ix3 g u j) := by
  rw [Ideal.matmul_constant_zero_apply, ← Equiv.sum_comp (contrEquiv1 DQK 32 rfl rfl).symm]
  refine Finset.sum_congr rfl fun k _ => ?_
  have hk := contrEquiv1_symm_val DQK 32 rfl rfl k
  have el : DQK.lhsIdx (ix3 g s u) ((contrEquiv1 DQK 32 rfl rfl).symm k) = ix3 g s k := funext fun a => Fin.ext (by
    match a with
    | ⟨0, _⟩ => exact lhs_qk_0 _ _
    | ⟨1, _⟩ => exact lhs_qk_1 _ _
    | ⟨2, _⟩ => exact (lhs_qk_2 _ _).trans hk)
  have er : DQK.rhsIdx (ix3 g s u) ((contrEquiv1 DQK 32 rfl rfl).symm k) = ix3 g u k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

/-- Flattening the (batch row, head) pair: [26, 8, 64, 32] read as [208, 64, 32]. -/
private theorem flatten_apply {α : Type} (x : S26x8x64x32.Idx → α) (b : Fin 26) (h : Fin 8) (g : Fin 208)
    (hg : g.val = b.val * 8 + h.val) (s : Fin 64) (j : Fin 32) :
    shapeCast S208x64x32 x shapeCasts_S26x8x64x32_S208x64x32 (ix3 g s j) = x (ix4 b h s j) :=
  shapeCast_apply x shapeCasts_S26x8x64x32_S208x64x32 (ix3 g s j) (ix4 b h s j)
    (by rewrite [Shape.rowMajor_val_four, Shape.rowMajor_val_three]
        show ((b.val * 8 + h.val) * 64 + s.val) * 32 + j.val = (g.val * 64 + s.val) * 32 + j.val
        rw [hg])

private theorem logits_apply (q4 k4 : FVec Ideal S26x8x64x32 .f32) (b : Fin 26) (h : Fin 8) (g : Fin 208)
    (hg : g.val = b.val * 8 + h.val) (s u : Fin 64) :
    logits (F := Ideal) q4 k4 (ix3 g s u)
      = ∑ j : Fin 32, (q4 (ix4 b h s j) * Cert.AttnSpec.scale) * k4 (ix4 b h u j) := by
  unfold logits
  refine (matmul_qk_apply _ _ g s u).trans ?_
  refine Finset.sum_congr rfl fun j _ => ?_
  rw [flatten_apply _ b h g hg s j, flatten_apply _ b h g hg u j]
  rfl

/-! ## The softmax over the key position -/

/-- The index a reduction over the last axis of a [208, 64, 64] array lifts (g, s) to at coordinate k. -/
private theorem lift_gs (g : Fin 208) (s : Fin 64) (k : Fin 64) :
    reduces_S208x64x64_S208x64.lift (ix2 g s) k = ix3 g s k :=
  funext fun a => Fin.ext (by
    match a with
    | ⟨0, _⟩ => rfl
    | ⟨1, _⟩ => rfl
    | ⟨2, _⟩ => rfl)

/-- A [208, 64] array with a unit axis appended and spread along 64 positions reads (g, s) at every (g, s, u). -/
private theorem spread_apply {α : Type} (x : S208x64.Idx → α) (g : Fin 208) (s u : Fin 64) :
    broadcastTo S208x64x64 (shapeCast S208x64x1 x shapeCasts_S208x64_S208x64x1) broadcasts_S208x64x1_S208x64x64 (ix3 g s u)
      = x (ix2 g s) := by
  refine (broadcastTo_apply _ broadcasts_S208x64x1_S208x64x64 (ix3 g s u) (ix3 g s (0 : Fin 1)) (fun a => ?_)).trans ?_
  · match a with
    | ⟨0, _⟩ => show g.val = if (208 : Nat) = 1 then 0 else g.val; rw [if_neg (by decide)]
    | ⟨1, _⟩ => show s.val = if (64 : Nat) = 1 then 0 else s.val; rw [if_neg (by decide)]
    | ⟨2, _⟩ => show 0 = if (1 : Nat) = 1 then 0 else u.val; rw [if_pos rfl]
  · exact shapeCast_apply x shapeCasts_S208x64_S208x64x1 (ix3 g s (0 : Fin 1)) (ix2 g s)
      (by rewrite [Shape.rowMajor_val_two, Shape.rowMajor_val_three]
          show g.val * 64 + s.val = (g.val * 64 + s.val) * 1 + 0
          omega)

/-- The kernel's row maximum, spread back along the key position. -/
private abbrev kmax (v31 : FVec Ideal S208x64x64 .f32) : FVec Ideal S208x64x64 .f32 :=
  broadcastTo S208x64x64 (shapeCast S208x64x1
    (multiReduction (F := Ideal) .maximumf [2] S208x64 v31 0xFF800000#32 reduces_S208x64x64_S208x64 (.inl rfl) rfl)
    shapeCasts_S208x64_S208x64x1) broadcasts_S208x64x1_S208x64x64
/-- The exponentials of the logits less their row maximum. -/
private abbrev kexp (v31 : FVec Ideal S208x64x64 .f32) : FVec Ideal S208x64x64 .f32 := exp (subf v31 (kmax v31))
/-- The kernel's row sum, spread back along the key position. -/
private abbrev ksum (v36 : FVec Ideal S208x64x64 .f32) : FVec Ideal S208x64x64 .f32 :=
  broadcastTo S208x64x64 (shapeCast S208x64x1
    (multiReduction (F := Ideal) .add [2] S208x64 v36 0x00000000#32 reduces_S208x64x64_S208x64 (.inl rfl) rfl)
    shapeCasts_S208x64_S208x64x1) broadcasts_S208x64x1_S208x64x64

private theorem weights_eq (v31 : FVec Ideal S208x64x64 .f32) :
    weights (F := Ideal) v31 = divf (kexp v31) (ksum (kexp v31)) := rfl

private theorem kmax_apply (v31 : FVec Ideal S208x64x64 .f32) (g : Fin 208) (s u : Fin 64) :
    kmax v31 (ix3 g s u) = Cert.AttnSpec.rowMax (fun u' => v31 (ix3 g s u')) := by
  refine (spread_apply _ g s u).trans ?_
  refine (Ideal.multiReduction_maximumf_single v31 _ reduces_S208x64x64_S208x64 (.inl rfl) rfl (ix2 g s)).trans ?_
  unfold Cert.AttnSpec.rowMax
  have e : (v31 ∘ reduces_S208x64x64_S208x64.lift (ix2 g s)) = fun u' : Fin 64 => v31 (ix3 g s u') :=
    funext fun k => congrArg v31 (lift_gs g s k)
  rw [e]
  rfl

private theorem kexp_apply (v31 : FVec Ideal S208x64x64 .f32) (g : Fin 208) (s u : Fin 64) :
    kexp v31 (ix3 g s u)
      = Ideal.exp (v31 (ix3 g s u) - Cert.AttnSpec.rowMax (fun u' => v31 (ix3 g s u'))) := by
  show Ideal.exp (v31 (ix3 g s u) - kmax v31 (ix3 g s u)) = _
  rw [kmax_apply]

private theorem ksum_apply (v36 : FVec Ideal S208x64x64 .f32) (g : Fin 208) (s u : Fin 64) :
    ksum v36 (ix3 g s u) = ∑ t : Fin 64, v36 (ix3 g s t) := by
  refine (spread_apply _ g s u).trans ?_
  refine (Ideal.multiReduction_add_single v36 _ reduces_S208x64x64_S208x64 (.inl rfl) rfl (ix2 g s)).trans ?_
  exact Finset.sum_congr rfl fun k _ => congrArg v36 (lift_gs g s k)

private theorem weights_apply (v31 : FVec Ideal S208x64x64 .f32) (g : Fin 208) (s u : Fin 64) :
    weights (F := Ideal) v31 (ix3 g s u) = Cert.AttnSpec.soft (fun u' => v31 (ix3 g s u')) u := by
  rw [weights_eq]
  show Ideal.div (kexp v31 (ix3 g s u)) (ksum (kexp v31) (ix3 g s u)) = _
  rw [ksum_apply, kexp_apply]
  unfold Cert.AttnSpec.soft
  exact congrArg _ (Finset.sum_congr rfl fun t _ => kexp_apply v31 g s t)

/-! ## The weighted sum of the values, the heads laid back side by side -/

private abbrev DWV := dot_S208x64x64_S208x64x32_S208x64x32_2_1_1_2_0_0

private theorem lhs_wv_0 (i : S208x64x32.Idx) (q : DWV.contr.Idx) : (DWV.lhsIdx i q 0).val = (i 0).val := by
  unfold DotDims.lhsIdx
  rw [dif_pos (show (0 : Fin S208x64x64.rank) ∈ DWV.lhsBatch by decide)]
  rfl
private theorem lhs_wv_1 (i : S208x64x32.Idx) (q : DWV.contr.Idx) : (DWV.lhsIdx i q 1).val = (i 1).val := by
  unfold DotDims.lhsIdx
  rw [dif_neg (show ¬(1 : Fin S208x64x64.rank) ∈ DWV.lhsBatch by decide), dif_pos (show (1 : Fin S208x64x64.rank) ∈ DWV.lhsNonContracting by decide)]
  rfl
private theorem lhs_wv_2 (i : S208x64x32.Idx) (q : DWV.contr.Idx) : (DWV.lhsIdx i q 2).val = (q ⟨0, by decide⟩).val :=
  DWV.lhsIdx_val_of_single rfl i q
private theorem rhs_wv_0 (i : S208x64x32.Idx) (q : DWV.contr.Idx) : (DWV.rhsIdx i q 0).val = (i 0).val := by
  unfold DotDims.rhsIdx
  rw [dif_pos (show (0 : Fin S208x64x32.rank) ∈ DWV.rhsBatch by decide)]
  rfl
private theorem rhs_wv_1 (i : S208x64x32.Idx) (q : DWV.contr.Idx) : (DWV.rhsIdx i q 1).val = (q ⟨0, by decide⟩).val :=
  DWV.rhsIdx_val_of_single rfl i q
private theorem rhs_wv_2 (i : S208x64x32.Idx) (q : DWV.contr.Idx) : (DWV.rhsIdx i q 2).val = (i 2).val := by
  unfold DotDims.rhsIdx
  rw [dif_neg (show ¬(2 : Fin S208x64x32.rank) ∈ DWV.rhsBatch by decide), dif_pos (show (2 : Fin S208x64x32.rank) ∈ DWV.rhsNonContracting by decide)]
  rfl

/-- The batched product of a [208, 64, 64] array with a [208, 64, 32] one over the key position, into the zero array,
    at (g, s, j). -/
private theorem matmul_wv_apply (x : FVec Ideal S208x64x64 .bf16) (y : FVec Ideal S208x64x32 .bf16) (g : Fin 208) (s : Fin 64) (j : Fin 32) :
    FloatOps.matmul DWV none x y (constant S208x64x32 .f32 0x00000000#32) (ix3 g s j)
      = ∑ t : Fin 64, x (ix3 g s t) * y (ix3 g t j) := by
  rw [Ideal.matmul_constant_zero_apply, ← Equiv.sum_comp (contrEquiv1 DWV 64 rfl rfl).symm]
  refine Finset.sum_congr rfl fun k _ => ?_
  have hk := contrEquiv1_symm_val DWV 64 rfl rfl k
  have el : DWV.lhsIdx (ix3 g s j) ((contrEquiv1 DWV 64 rfl rfl).symm k) = ix3 g s k := funext fun a => Fin.ext (by
    match a with
    | ⟨0, _⟩ => exact lhs_wv_0 _ _
    | ⟨1, _⟩ => exact lhs_wv_1 _ _
    | ⟨2, _⟩ => exact (lhs_wv_2 _ _).trans hk)
  have er : DWV.rhsIdx (ix3 g s j) ((contrEquiv1 DWV 64 rfl rfl).symm k) = ix3 g k j := funext fun a => Fin.ext (by
    match a with
    | ⟨0, _⟩ => exact rhs_wv_0 _ _
    | ⟨1, _⟩ => exact (rhs_wv_1 _ _).trans hk
    | ⟨2, _⟩ => exact rhs_wv_2 _ _)
  rw [el, er]

private theorem combine_apply (v40 : FVec Ideal S208x64x64 .f32) (v4' : FVec Ideal S26x8x64x32 .f32) (b : Fin 26) (s : Fin 64)
    (d : Fin 256) (g : Fin 208) (hg : g.val = b.val * 8 + (Cert.AttnSpec.headOf d).val) :
    combine (F := Ideal) v40 v4' (ix3 b s d)
      = ∑ t : Fin 64, v40 (ix3 g s t) * v4' (ix4 b (Cert.AttnSpec.headOf d) t (Cert.AttnSpec.laneOf d)) := by
  unfold combine
  -- column d of the merged width is lane d % 32 of head d / 32
  refine (shapeCast_apply _ shapeCasts_S26x64x8x32_S26x64x256 (ix3 b s d)
    (ix4 b s (Cert.AttnSpec.headOf d) (Cert.AttnSpec.laneOf d)) ?_).trans ?_
  · rewrite [Shape.rowMajor_val_four, Shape.rowMajor_val_three]
    show ((b.val * 64 + s.val) * 8 + d.val / 32) * 32 + d.val % 32 = (b.val * 64 + s.val) * 256 + d.val
    omega
  -- the head axis moves back ahead of the position axis
  refine (transpose_apply [0, 2, 1, 3] _ transposes_S26x8x64x32_p0_2_1_3_S26x64x8x32
    (ix4 b s (Cert.AttnSpec.headOf d) (Cert.AttnSpec.laneOf d)) (ix4 b (Cert.AttnSpec.headOf d) s (Cert.AttnSpec.laneOf d)) (fun a => ?_)).trans ?_
  · match a with
    | ⟨0, _⟩ => rfl
    | ⟨1, _⟩ => rfl
    | ⟨2, _⟩ => rfl
    | ⟨3, _⟩ => rfl
  -- the (batch row, head) pair is one flattened index
  refine (shapeCast_apply _ shapeCasts_S208x64x32_S26x8x64x32 (ix4 b (Cert.AttnSpec.headOf d) s (Cert.AttnSpec.laneOf d))
    (ix3 g s (Cert.AttnSpec.laneOf d)) ?_).trans ?_
  · rewrite [Shape.rowMajor_val_three, Shape.rowMajor_val_four]
    show (g.val * 64 + s.val) * 32 + (Cert.AttnSpec.laneOf d).val
      = ((b.val * 8 + (Cert.AttnSpec.headOf d).val) * 64 + s.val) * 32 + (Cert.AttnSpec.laneOf d).val
    rw [hg]
  refine (matmul_wv_apply _ _ g s (Cert.AttnSpec.laneOf d)).trans ?_
  refine Finset.sum_congr rfl fun t _ => ?_
  rw [flatten_apply _ b (Cert.AttnSpec.headOf d) g hg t (Cert.AttnSpec.laneOf d)]
  rfl

theorem attend_apply (q4 k4 v4' : FVec Ideal S26x8x64x32 .f32) (b : Fin 26) (s : Fin 64) (d : Fin 256) :
    attend (F := Ideal) q4 k4 v4' (ix3 b s d)
      = ∑ t : Fin 64, Cert.AttnSpec.soft (fun u => ∑ j : Fin 32,
            (q4 (ix4 b (Cert.AttnSpec.headOf d) s j) * Cert.AttnSpec.scale) * k4 (ix4 b (Cert.AttnSpec.headOf d) u j)) t
          * v4' (ix4 b (Cert.AttnSpec.headOf d) t (Cert.AttnSpec.laneOf d)) := by
  have hlt : b.val * 8 + (Cert.AttnSpec.headOf d).val < 208 := by
    have hb : b.val < 26 := b.isLt
    have hh : (Cert.AttnSpec.headOf d).val < 8 := (Cert.AttnSpec.headOf d).isLt
    omega
  unfold attend
  refine (combine_apply _ v4' b s d ⟨b.val * 8 + (Cert.AttnSpec.headOf d).val, hlt⟩ rfl).trans ?_
  refine Finset.sum_congr rfl fun t _ => ?_
  have e : (fun u' : Fin 64 => logits (F := Ideal) q4 k4 (ix3 (⟨b.val * 8 + (Cert.AttnSpec.headOf d).val, hlt⟩ : Fin 208) s u'))
      = fun u => ∑ j : Fin 32, (q4 (ix4 b (Cert.AttnSpec.headOf d) s j) * Cert.AttnSpec.scale) * k4 (ix4 b (Cert.AttnSpec.headOf d) u j) :=
    funext fun u => logits_apply q4 k4 b (Cert.AttnSpec.headOf d) _ rfl s u
  rw [weights_apply, e]

end Cert.KernelIdeal.Stages

end
-- ==== Proof.KernelBlock.lean ====
/-
  What the kernel body leaves in its output block, entry by entry: the attention layer of `AttnSpec` (queries scaled
  first) applied to the batch row the entry belongs to, read off the body's input blocks.
-/
import proofs.«400726_j29420525978033_3_alg».proof.Proof.KernelFused
import proofs.«400726_j29420525978033_3_alg».proof.Proof.KernelAttend
import proofs.«400726_j29420525978033_3_alg».proof.Proof.Gen.KernelIdeal.Frame

noncomputable section

namespace Cert.KernelIdeal.Stages

open Idealize.ShloMosaic Idealize.ShloMosaic.ValueIdx Idealize.SL.Sem Cert.KernelIdeal Cert.KernelIdeal.Gen
open Cert.AttnSpec

/-- Row `b·64 + s` of the block's 1664 flattened rows. -/
def flatRow (b : Fin 26) (s : Fin 64) : Fin 1664 := ⟨b.val * 64 + s.val, by have := b.isLt; have := s.isLt; omega⟩

/-- The body's value before the output projection, at (batch row, position, column): the heads' attention outputs laid
    side by side, of the batch row's fused projection. -/
theorem pay2_apply (x0 : Vec Ideal S26x64x256 .f32) (x1 : Vec Ideal S768x256 .f32) (x2 : Vec Ideal S1x768 .f32)
    (b : Fin 26) (s : Fin 64) (d : Fin 256) :
    k0_pay2 (F := Ideal) x0 x1 x2 (ix3 b s d)
      = merged (qkv (fun s d => x0 (ix3 b s d)) (fun e d => x1 (ix2 e d)) (fun e => x2 (ix2 (0 : Fin 1) e)))
          (logitK (qkv (fun s d => x0 (ix3 b s d)) (fun e d => x1 (ix2 e d)) (fun e => x2 (ix2 (0 : Fin 1) e)))) s d := by
  rw [pay2_eq, attend_apply]
  unfold merged ctx
  refine Finset.sum_congr rfl fun t _ => ?_
  have hq : ∀ (u : Fin 64) (j : Fin 32), heads (F := Ideal) 0 slices_S1664x768_o0_0_S1664x256 (fused x0 x1 x2) (ix4 b (headOf d) u j)
      = qkv (fun s d => x0 (ix3 b s d)) (fun e d => x1 (ix2 e d)) (fun e => x2 (ix2 (0 : Fin 1) e)) u (qcol (headOf d) j) := fun u j => by
    rw [heads_apply 0 _ _ b (headOf d) u j (flatRow b u) (qcol (headOf d) j) rfl (Nat.zero_add _).symm,
      fused_apply x0 x1 x2 b u _ (flatRow b u) rfl]
  have hk : ∀ (u : Fin 64) (j : Fin 32), heads (F := Ideal) 256 slices_S1664x768_o0_256_S1664x256 (fused x0 x1 x2) (ix4 b (headOf d) u j)
      = qkv (fun s d => x0 (ix3 b s d)) (fun e d => x1 (ix2 e d)) (fun e => x2 (ix2 (0 : Fin 1) e)) u (kcol (headOf d) j) := fun u j => by
    rw [heads_apply 256 _ _ b (headOf d) u j (flatRow b u) (kcol (headOf d) j) rfl rfl,
      fused_apply x0 x1 x2 b u _ (flatRow b u) rfl]
  have hv : ∀ (u : Fin 64) (j : Fin 32), heads (F := Ideal) 512 slices_S1664x768_o0_512_S1664x256 (fused x0 x1 x2) (ix4 b (headOf d) u j)
      = qkv (fun s d => x0 (ix3 b s d)) (fun e d => x1 (ix2 e d)) (fun e => x2 (ix2 (0 : Fin 1) e)) u (vcol (headOf d) j) := fun u j => by
    rw [heads_apply 512 _ _ b (headOf d) u j (flatRow b u) (vcol (headOf d) j) rfl rfl,
      fused_apply x0 x1 x2 b u _ (flatRow b u) rfl]
  rw [hv]
  refine congrArg (fun L => soft L t * _) (funext fun u => ?_)
  unfold logitK
  exact Finset.sum_congr rfl fun j _ => by rw [hq, hk]

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body, entry by entry, from the input blocks: the layer on batch row `b`. -/
theorem out_apply (x0 : Vec Ideal S26x64x256 .f32) (x1 : Vec Ideal S768x256 .f32) (x2 : Vec Ideal S1x768 .f32)
    (x3 : Vec Ideal S256x256 .f32) (x4 : Vec Ideal S1x256 .f32) (b : Fin 26) (s : Fin 64) (e : Fin 256) :
    out0_5 (F := Ideal) x0 x1 x2 x3 x4 (ix3 b s e)
      = rowK (fun s d => x0 (ix3 b s d)) (fun e d => x1 (ix2 e d)) (fun e => x2 (ix2 (0 : Fin 1) e))
          (fun e d => x3 (ix2 e d)) (fun e => x4 (ix2 (0 : Fin 1) e)) s e := by
  unfold out0_5
  rw [View.canon_unit_zero hz3]
  simp only [View.ld_unit_zero (S := S26x64x256) hz3, View.ld_unit_zero (S := S768x256) hz2, View.ld_unit_zero (S := S1x768) hz2,
    View.ld_unit_zero (S := S256x256) hz2, View.ld_unit_zero (S := S1x256) hz2]
  rw [pay1_apply]
  unfold rowK
  exact congrArg (fun C => proj _ _ C s e) (funext fun s' => funext fun d => pay2_apply x0 x1 x2 b s' d)

end Cert.KernelIdeal.Stages

end
-- ==== Proof.KernelValue.lean ====
/-
  The kernel program's result array as ONE function of its arguments: every [26, 64, 256] block the grid writes back is
  the attention layer of `AttnSpec` (queries scaled first) on the 26 batch rows the block holds, the 100 blocks tile the
  [2600, 64, 256] array, and the reshape after the region lays it out as [8, 325, 64, 256].
-/
import proofs.«400726_j29420525978033_3_alg».proof.Proof.KernelBlock
import proofs.«400726_j29420525978033_3_alg».proof.Proof.Gen.KernelIdeal.Frame
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Stages Cert.AttnSpec

variable (m : (ℓ : Loc nD τ sig) → Buf (Elt Ideal) ℓ) (ρ : Dev nD → PrngReg)

/-- The [2600, 64, 256] array the region writes, as a function of the program's arguments. -/
def G (c : Dev nD) : Cert.KernelIdeal.S2600x64x256.Idx → EReal :=
  attnK (shapeCast Cert.KernelIdeal.S2600x64x256 (m ((c : Thread nD τ).loc main_arg0)) shapeCasts_S8x325x64x256_S2600x64x256)
    (m ((c : Thread nD τ).loc main_arg1)) (m ((c : Thread nD τ).loc main_arg2)) (m ((c : Thread nD τ).loc main_arg3))
    (m ((c : Thread nD τ).loc main_arg4))

/-! ## The arrays the region reads, as the host lines before it leave them -/

theorem V_v0 (c : Dev nD) : (V m c main_v0 : Cert.KernelIdeal.S2600x64x256.Idx → EReal)
    = shapeCast Cert.KernelIdeal.S2600x64x256 (m ((c : Thread nD τ).loc main_arg0)) shapeCasts_S8x325x64x256_S2600x64x256 := by
  show StableHlo.after hostOps0 (fun b => m (c, b)) (Proc.devRef .tc main_v0) = _
  after_results
  rfl

theorem V_v1 (c : Dev nD) : (V m c main_v1 : S1x768.Idx → EReal)
    = shapeCast S1x768 (m ((c : Thread nD τ).loc main_arg2)) shapeCasts_S768_S1x768 := by
  show StableHlo.after hostOps0 (fun b => m (c, b)) (Proc.devRef .tc main_v1) = _
  after_results
  rfl

theorem V_v2 (c : Dev nD) : (V m c main_v2 : S1x256.Idx → EReal)
    = shapeCast S1x256 (m ((c : Thread nD τ).loc main_arg4)) shapeCasts_S256_S1x256 := by
  show StableHlo.after hostOps0 (fun b => m (c, b)) (Proc.devRef .tc main_v2) = _
  after_results
  rfl

/-! ## The windows' blocks as parts of the arrays -/

/-- The printed index maps over the grid: the activation window and the result window step one block of 26 batch rows
    per point, the weights' and biases' windows stay on their one block. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Batch row `26·t + b` of the 2600. -/
def batchRow (t : Fin cfg0.N) (b : Fin 26) : Fin 2600 :=
  ⟨26 * t.val + b.val, by have := t.isLt; have h : cfg0.N = 100 := N_0; have := b.isLt; omega⟩

/-- The activation block at point `t` holds batch rows `26·t … 26·t + 25`. -/
theorem iblk0_apply (c : Dev nD) (t : Fin cfg0.N) (b : Fin 26) (s : Fin 64) (d : Fin 256) :
    (iblk m c 0 t : Vec Ideal S26x64x256 .f32) (ix3 b s d)
      = (V m c main_v0 : Cert.KernelIdeal.S2600x64x256.Idx → EReal) (ix3 (batchRow t b) s d) := by
  obtain ⟨e0, e1, e2, -⟩ := idx_facts t
  unfold iblk
  rw [View.read_apply]
  show V m c main_v0 _ = V m c main_v0 _
  congr 1
  funext a
  apply Fin.ext
  match a with
  | ⟨0, _⟩ => show win0_0.index t 0 * 26 + 1 * b.val = 26 * t.val + b.val; rw [e0]; omega
  | ⟨1, _⟩ => show win0_0.index t 1 * 64 + 1 * s.val = s.val; rw [e1]; omega
  | ⟨2, _⟩ => show win0_0.index t 2 * 256 + 1 * d.val = d.val; rw [e2]; omega

/-- The fused weight's one block is the whole array. -/
theorem iblk1_apply (c : Dev nD) (t : Fin cfg0.N) (e : Fin 768) (d : Fin 256) :
    (iblk m c 1 t : Vec Ideal S768x256 .f32) (ix2 e d) = (m ((c : Thread nD τ).loc main_arg1) : S768x256.Idx → EReal) (ix2 e d) := by
  obtain ⟨-, -, -, e0, e1, -⟩ := idx_facts t
  unfold iblk
  rw [View.read_apply]
  show V m c main_arg1 _ = _
  rw [V_main_arg1]
  congr 1
  funext a
  apply Fin.ext
  match a with
  | ⟨0, _⟩ => show win0_1.index t 0 * 768 + 1 * e.val = e.val; rw [e0]; omega
  | ⟨1, _⟩ => show win0_1.index t 1 * 256 + 1 * d.val = d.val; rw [e1]; omega

/-- The fused bias's one block is the bias laid out as a row. -/
theorem iblk2_apply (c : Dev nD) (t : Fin cfg0.N) (e : Fin 768) :
    (iblk m c 2 t : Vec Ideal S1x768 .f32) (ix2 (0 : Fin 1) e) = (m ((c : Thread nD τ).loc main_arg2) : S768.Idx → EReal) (ix1 e) := by
  obtain ⟨-, -, -, -, -, e0, e1, -⟩ := idx_facts t
  unfold iblk
  rw [View.read_apply]
  show (V m c main_v1 : S1x768.Idx → EReal) _ = _
  rw [V_v1]
  refine shapeCast_apply (s := S768) (t := S1x768) _ shapeCasts_S768_S1x768 _ (ix1 e) ?_
  show (S768.rowMajor (ix1 e)).val = (S1x768.rowMajor _).val
  rw [Shape.rowMajor_val_one, Shape.rowMajor_val_two]
  show e.val = (win0_2.index t 0 * 1 + 1 * 0) * 768 + (win0_2.index t 1 * 768 + 1 * e.val)
  rw [e0, e1]; omega

/-- The output weight's one block is the whole array. -/
theorem iblk3_apply (c : Dev nD) (t : Fin cfg0.N) (e : Fin 256) (d : Fin 256) :
    (iblk m c 3 t : Vec Ideal S256x256 .f32) (ix2 e d) = (m ((c : Thread nD τ).loc main_arg3) : S256x256.Idx → EReal) (ix2 e d) := by
  obtain ⟨-, -, -, -, -, -, -, e0, e1, -⟩ := idx_facts t
  unfold iblk
  rw [View.read_apply]
  show V m c main_arg3 _ = _
  rw [V_main_arg3]
  congr 1
  funext a
  apply Fin.ext
  match a with
  | ⟨0, _⟩ => show win0_3.index t 0 * 256 + 1 * e.val = e.val; rw [e0]; omega
  | ⟨1, _⟩ => show win0_3.index t 1 * 256 + 1 * d.val = d.val; rw [e1]; omega

/-- The output bias's one block is the bias laid out as a row. -/
theorem iblk4_apply (c : Dev nD) (t : Fin cfg0.N) (e : Fin 256) :
    (iblk m c 4 t : Vec Ideal S1x256 .f32) (ix2 (0 : Fin 1) e) = (m ((c : Thread nD τ).loc main_arg4) : S256.Idx → EReal) (ix1 e) := by
  obtain ⟨-, -, -, -, -, -, -, -, -, e0, e1, -⟩ := idx_facts t
  unfold iblk
  rw [View.read_apply]
  show (V m c main_v2 : S1x256.Idx → EReal) _ = _
  rw [V_v2]
  refine shapeCast_apply (s := S256) (t := S1x256) _ shapeCasts_S256_S1x256 _ (ix1 e) ?_
  show (S256.rowMajor (ix1 e)).val = (S1x256.rowMajor _).val
  rw [Shape.rowMajor_val_one, Shape.rowMajor_val_two]
  show e.val = (win0_4.index t 0 * 1 + 1 * 0) * 256 + (win0_4.index t 1 * 256 + 1 * e.val)
  rw [e0, e1]; omega

/-! ## What each point writes back, and the cover -/

/-- Point `t` writes back block `t` of `G`. -/
theorem flushed_eq (c : Dev nD) (t : Fin cfg0.N) :
    (dats m 0 c).flushed 5 t = ((cfg0.win 5).blk t).view.read (Elt Ideal) (G m c) := by
  obtain ⟨-, -, -, -, -, -, -, -, -, -, -, e0, e1, e2⟩ := idx_facts t
  show (cfg0.win 5).cut (grid0.coords t) ((dats m 0 c).after 5 t) = _
  rw [after0_5]
  funext j
  obtain ⟨b, s, e, rfl⟩ : ∃ (b : Fin 26) (s : Fin 64) (e : Fin 256), j = ix3 b s e := ⟨j 0, j 1, j 2, eq_ix3 j⟩
  show out0_5 (iblk m c 0 t) (iblk m c 1 t) (iblk m c 2 t) (iblk m c 3 t) (iblk m c 4 t) (ix3 b s e)
    = G m c (((cfg0.win 5).blk t).view.emb (ix3 b s e))
  have hemb : ((cfg0.win 5).blk t).view.emb (ix3 b s e) = (ix3 (batchRow t b) s e : Cert.KernelIdeal.S2600x64x256.Idx) := by
    funext a
    apply Fin.ext
    match a with
    | ⟨0, _⟩ => show win0_5.index t 0 * 26 + 1 * b.val = 26 * t.val + b.val; rw [e0]; omega
    | ⟨1, _⟩ => show win0_5.index t 1 * 64 + 1 * s.val = s.val; rw [e1]; omega
    | ⟨2, _⟩ => show win0_5.index t 2 * 256 + 1 * e.val = e.val; rw [e2]; omega
  rw [hemb, out_apply]
  show _ = rowK (fun s d => shapeCast Cert.KernelIdeal.S2600x64x256 (m ((c : Thread nD τ).loc main_arg0)) shapeCasts_S8x325x64x256_S2600x64x256 (ix3 (batchRow t b) s d))
    (fun e d => m ((c : Thread nD τ).loc main_arg1) (ix2 e d)) (fun e => m ((c : Thread nD τ).loc main_arg2) (ix1 e))
    (fun e d => m ((c : Thread nD τ).loc main_arg3) (ix2 e d)) (fun e => m ((c : Thread nD τ).loc main_arg4) (ix1 e)) s e
  rw [← V_v0]
  simp only [iblk0_apply, iblk1_apply, iblk2_apply, iblk3_apply, iblk4_apply]

/-- An index of the array is in point `t`'s block iff each coordinate is in the block's range on its axis. -/
theorem mem_blk (t : Fin cfg0.N) (i : Cert.KernelIdeal.S2600x64x256.Idx) :
    i ∈ ((cfg0.win 5).blk t).view.set ↔ ∀ a : Fin 3, win0_5.index t a * S26x64x256.size a ≤ (i a).val ∧ (i a).val < win0_5.index t a * S26x64x256.size a + S26x64x256.size a := by
  show i ∈ ((View.whole main_v3).slice (win0_5.rect t)).set ↔ _
  rw [View.set_slice_whole, Rect.mem_set_unit]
  exact Iff.rfl

/-- The 100 blocks tile the array: batch row `r` lies in block `r / 26`. -/
theorem cover (i : Cert.KernelIdeal.S2600x64x256.Idx) :
    ∃ t : Fin cfg0.N, (cfg0.win 5).flush t = true ∧ i ∈ ((cfg0.win 5).blk t).view.set := by
  have h0 : (i 0).val < 2600 := (i 0).isLt
  have h1 : (i 1).val < 64 := (i 1).isLt
  have h2 : (i 2).val < 256 := (i 2).isLt
  have hN : cfg0.N = 100 := N_0
  refine ⟨⟨(i 0).val / 26, by omega⟩, flush0_5 _, ?_⟩
  obtain ⟨-, -, -, -, -, -, -, -, -, -, -, e0, e1, e2⟩ := idx_facts ⟨(i 0).val / 26, by omega⟩
  rw [mem_blk]
  intro a
  match a with
  | ⟨0, _⟩ => show win0_5.index _ 0 * 26 ≤ (i 0).val ∧ (i 0).val < win0_5.index _ 0 * 26 + 26; rw [e0]; show (i 0).val / 26 * 26 ≤ (i 0).val ∧ (i 0).val < (i 0).val / 26 * 26 + 26; omega
  | ⟨1, _⟩ => show win0_5.index _ 1 * 64 ≤ (i 1).val ∧ (i 1).val < win0_5.index _ 1 * 64 + 64; rw [e1]; omega
  | ⟨2, _⟩ => show win0_5.index _ 2 * 256 ≤ (i 2).val ∧ (i 2).val < win0_5.index _ 2 * 256 + 256; rw [e2]; omega

/-- So the region's result array ends holding `G`. -/
theorem final (c : Dev nD) : (dats m 0 c).arrAt 5 cfg0.N = G m c :=
  (dats m 0 c).arrAt_eq_of_cover 5 (G m c) (fun t _ => flushed_eq m c t) cover

/-! ## The reshape after the region, and the run -/

/-- The program's result: `G` laid out as [8, 325, 64, 256]. -/
def result (c : Dev nD) : Buf (Elt Ideal) ((c : Thread nD τ).loc main_v4) :=
  shapeCast S8x325x64x256 (G m c) shapeCasts_S2600x64x256_S8x325x64x256

theorem tail_eq (c : Dev nD) : Pipeline.afterTail₀ cfgs (dats m) 0 (V0 m) [hostOps1] c main_v4 = result m c := by
  unfold Pipeline.afterTail₀
  show StableHlo.after hostOps1 _ (Proc.devRef .tc main_v4) = _
  after_results
  have hW : Pipeline.withArrays (cfgs 0).spec c (V0 m c) (fun w => (dats m 0 c).arrAt w (cfgs 0).N) (Proc.devRef .tc main_v3) = G m c :=
    (Pipeline.withArrays_arr spec0 launch0.win.arr_inj c _ _ 5).trans (final m c)
  rw [hW]
  rfl

/-- Every weakly fair execution of the program ends with the result array at `result` and the arguments as launched. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.Whole

end
-- ==== Proof.RefValue.lean ====
/-
  The reference program's value before its last reshape, read as the attention layer on the [2600, 64, 256] array of
  batch rows with the query–key products scaled after the sum.
-/
import proofs.«400726_j29420525978033_3_alg».proof.Proof.Gen.ReferenceIdeal.Run
import proofs.«400726_j29420525978033_3_alg».proof.Proof.Gen.ReferenceIdeal.Read
import proofs.«400726_j29420525978033_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx Idealize.SL.Sem Cert.ReferenceIdeal Cert.ReferenceIdeal.Gen Cert.ReferenceIdeal.Read

/-- The projected row of batch element `b`: the fused query/key/value projection of its 64 × 256 slab. -/
abbrev Qrow (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) : Fin 64 → Fin 768 → EReal :=
  Cert.AttnSpec.qkv (fun s d => val_main_v0 (F := Ideal) x0 (ix3 b s d)) (fun e d => x1 (ix2 e d)) (fun e => x2 (ix1 e))

/-- The fused projection plus bias at (b, s, e) is the projected row's entry (s, e). -/
private theorem v4_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (s : Fin 64) (e : Fin 768) :
    val_main_v4 (F := Ideal) x0 x1 x2 (ix3 b s e) = Qrow x0 x1 x2 b s e := by
  rw [val_main_v4_apply, val_main_v1_apply, val_main_v3_apply, val_main_v2_apply]
  show (∑ k : Fin 256, _) + _ = (∑ d : Fin 256, _) + _
  have el : ∀ k : Fin 256, lidx_main_v1 (ix3 b s e) k = ix3 b s k := fun k => funext fun a => Fin.ext (by
    match a with
    | ⟨0, _⟩ => rfl
    | ⟨1, _⟩ => rfl
    | ⟨2, _⟩ => rfl)
  have er : ∀ k : Fin 256, ridx_main_v1 (ix3 b s e) k = ix2 e k := fun k => funext fun a => Fin.ext (by
    match a with
    | ⟨0, _⟩ => rfl
    | ⟨1, _⟩ => rfl)
  have eb : idx_main_v2 (idx_main_v3 (ix3 b s e)) = ix1 e := funext fun a => Fin.ext (by
    match a with
    | ⟨0, _⟩ => rfl)
  rw [eb]
  refine congrArg (· + x2 (ix1 e)) (Finset.sum_congr rfl fun k _ => ?_)
  rw [el, er]

/-! ## The three slices of the projected columns -/

/-- Undoing the split of the 768 columns into (part, head, lane): column `part·256 + head·32 + lane`. -/
private theorem idx5_eq (b : Fin 2600) (s : Fin 64) (c : Fin 3) (h : Fin 8) (j : Fin 32) (col : Fin 768)
    (hcol : col.val = c.val * 256 + (h.val * 32 + j.val)) :
    idx_main_v5 (ix5 b s c h j) = ix3 b s col := by
  have hb := b.isLt; have hs := s.isLt; have hc := c.isLt; have hh := h.isLt; have hj := j.isLt
  funext a
  refine Fin.ext ?_
  match a with
  | ⟨0, _⟩ =>
    show ((((b.val * 64 + s.val) * 3 + c.val) * 8 + h.val) * 32 + j.val) / 49152 = b.val
    omega
  | ⟨1, _⟩ =>
    show ((((b.val * 64 + s.val) * 3 + c.val) * 8 + h.val) * 32 + j.val) / 768 % 64 = s.val
    omega
  | ⟨2, _⟩ =>
    show ((((b.val * 64 + s.val) * 3 + c.val) * 8 + h.val) * 32 + j.val) % 768 = col.val
    omega

/-- Dropping the leading unit axis of a slice. -/
private theorem idx8_eq (b : Fin 2600) (h : Fin 8) (s : Fin 64) (j : Fin 32) :
    idx_main_v8 (ix4 b h s j) = ix5 (⟨0, Nat.one_pos⟩ : Fin 1) b h s j := by
  have hb := b.isLt; have hs := s.isLt; have hh := h.isLt; have hj := j.isLt
  funext a
  refine Fin.ext ?_
  match a with
  | ⟨0, _⟩ => rfl
  | ⟨1, _⟩ =>
    show (((b.val * 8 + h.val) * 64 + s.val) * 32 + j.val) / 16384 % 2600 = b.val
    omega
  | ⟨2, _⟩ =>
    show (((b.val * 8 + h.val) * 64 + s.val) * 32 + j.val) / 2048 % 8 = h.val
    omega
  | ⟨3, _⟩ =>
    show (((b.val * 8 + h.val) * 64 + s.val) * 32 + j.val) / 32 % 64 = s.val
    omega
  | ⟨4, _⟩ =>
    show (((b.val * 8 + h.val) * 64 + s.val) * 32 + j.val) % 32 = j.val
    omega

/-- The transposed array at (part, b, head, s, lane) is the split array at (b, s, part, head, lane). -/
private theorem idx6_eq (c : Fin 3) (b : Fin 2600) (h : Fin 8) (s : Fin 64) (j : Fin 32) :
    idx_main_v6 (ix5 c b h s j) = ix5 b s c h j := by
  funext a
  refine Fin.ext ?_
  match a with
  | ⟨0, _⟩ => rfl
  | ⟨1, _⟩ => rfl
  | ⟨2, _⟩ => rfl
  | ⟨3, _⟩ => rfl
  | ⟨4, _⟩ => rfl

/-- The transposed array read at (part, b, head, s, lane): the fused projection at (b, s, column). -/
private theorem v6_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (c : Fin 3) (b : Fin 2600) (h : Fin 8) (s : Fin 64) (j : Fin 32) (col : Fin 768)
    (hcol : col.val = c.val * 256 + (h.val * 32 + j.val)) :
    val_main_v6 (F := Ideal) x0 x1 x2 (ix5 c b h s j) = val_main_v4 (F := Ideal) x0 x1 x2 (ix3 b s col) := by
  rw [val_main_v6_apply, idx6_eq, val_main_v5_apply, idx5_eq b s c h j col hcol]

/-- The query slice at (b, head, s, lane). -/
private theorem v8_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s : Fin 64) (j : Fin 32) :
    val_main_v8 (F := Ideal) x0 x1 x2 (ix4 b h s j) = Qrow x0 x1 x2 b s (Cert.AttnSpec.qcol h j) := by
  have e7 : idx_main_v7 (ix5 (⟨0, Nat.one_pos⟩ : Fin 1) b h s j) = ix5 (⟨0, by decide⟩ : Fin 3) b h s j := funext fun a => Fin.ext (by
    match a with
    | ⟨0, _⟩ => rfl
    | ⟨1, _⟩ => rfl
    | ⟨2, _⟩ => rfl
    | ⟨3, _⟩ => rfl
    | ⟨4, _⟩ => rfl)
  rw [val_main_v8_apply, idx8_eq, val_main_v7_apply, e7,
    v6_eq x0 x1 x2 _ b h s j (Cert.AttnSpec.qcol h j) (by show h.val * 32 + j.val = 0 * 256 + (h.val * 32 + j.val); omega), v4_eq]

/-- The key slice at (b, head, s, lane). -/
private theorem v10_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s : Fin 64) (j : Fin 32) :
    val_main_v10 (F := Ideal) x0 x1 x2 (ix4 b h s j) = Qrow x0 x1 x2 b s (Cert.AttnSpec.kcol h j) := by
  have e9 : idx_main_v9 (ix5 (⟨0, Nat.one_pos⟩ : Fin 1) b h s j) = ix5 (⟨1, by decide⟩ : Fin 3) b h s j := funext fun a => Fin.ext (by
    match a with
    | ⟨0, _⟩ => rfl
    | ⟨1, _⟩ => rfl
    | ⟨2, _⟩ => rfl
    | ⟨3, _⟩ => rfl
    | ⟨4, _⟩ => rfl)
  have e8 : idx_main_v10 (ix4 b h s j) = ix5 (⟨0, Nat.one_pos⟩ : Fin 1) b h s j := idx8_eq b h s j
  rw [val_main_v10_apply, e8, val_main_v9_apply, e9,
    v6_eq x0 x1 x2 _ b h s j (Cert.AttnSpec.kcol h j) (by show 256 + (h.val * 32 + j.val) = 1 * 256 + (h.val * 32 + j.val); omega), v4_eq]

/-- The value slice at (b, head, s, lane). -/
private theorem v12_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s : Fin 64) (j : Fin 32) :
    val_main_v12 (F := Ideal) x0 x1 x2 (ix4 b h s j) = Qrow x0 x1 x2 b s (Cert.AttnSpec.vcol h j) := by
  have e11 : idx_main_v11 (ix5 (⟨0, Nat.one_pos⟩ : Fin 1) b h s j) = ix5 (⟨2, by decide⟩ : Fin 3) b h s j := funext fun a => Fin.ext (by
    match a with
    | ⟨0, _⟩ => rfl
    | ⟨1, _⟩ => rfl
    | ⟨2, _⟩ => rfl
    | ⟨3, _⟩ => rfl
    | ⟨4, _⟩ => rfl)
  have e8 : idx_main_v12 (ix4 b h s j) = ix5 (⟨0, Nat.one_pos⟩ : Fin 1) b h s j := idx8_eq b h s j
  rw [val_main_v12_apply, e8, val_main_v11_apply, e11,
    v6_eq x0 x1 x2 _ b h s j (Cert.AttnSpec.vcol h j) (by show 512 + (h.val * 32 + j.val) = 2 * 256 + (h.val * 32 + j.val); omega), v4_eq]

/-! ## The logits -/

/-- The scaled query–key products of head `h` at (s, u). -/
private theorem v15_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s u : Fin 64) :
    val_main_v15 (F := Ideal) x0 x1 x2 (ix4 b h s u) = Cert.AttnSpec.logitR (Qrow x0 x1 x2 b) h s u := by
  rw [val_main_v15_apply, val_main_v13_apply, val_main_v14_apply, val_main_cst_apply]
  show (∑ k : Fin 32, _) * Cert.AttnSpec.scale = (∑ j : Fin 32, _) * Cert.AttnSpec.scale
  have el : ∀ k : Fin 32, lidx_main_v13 (ix4 b h s u) k = ix4 b h s k := fun k => funext fun a => Fin.ext (by
    match a with
    | ⟨0, _⟩ => rfl
    | ⟨1, _⟩ => rfl
    | ⟨2, _⟩ => rfl
    | ⟨3, _⟩ => rfl)
  have er : ∀ k : Fin 32, ridx_main_v13 (ix4 b h s u) k = ix4 b h u k := fun k => funext fun a => Fin.ext (by
    match a with
    | ⟨0, _⟩ => rfl
    | ⟨1, _⟩ => rfl
    | ⟨2, _⟩ => rfl
    | ⟨3, _⟩ => rfl)
  refine congrArg (· * Cert.AttnSpec.scale) (Finset.sum_congr rfl fun k _ => ?_)
  rw [el, er, v8_eq, v10_eq]

/-! ## The row maximum -/

/-- The shape fact that names the index put back on the reduced axis. -/
private theorem hred : S2600x8x64x64.Reduces [3] S2600x8x64 := by decide

/-- The reduced index (b, h, s) with key position `k` put back is (b, h, s, k). -/
private theorem lift_eq (b : Fin 2600) (h : Fin 8) (s : Fin 64) (k : Fin (S2600x8x64x64.size 3)) :
    hred.lift (ix3 b h s) k = ix4 b h s (⟨k.val, k.isLt⟩ : Fin 64) := by
  funext a
  refine Fin.ext ?_
  match a with
  | ⟨0, _⟩ => rfl
  | ⟨1, _⟩ => rfl
  | ⟨2, _⟩ => rfl
  | ⟨3, _⟩ => rfl

/-- The reduce with a maximum body at (b, h, s): the maximum from `-∞` of the row of logits. -/
private theorem v16_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s : Fin 64) :
    val_main_v16 (F := Ideal) x0 x1 x2 (ix3 b h s) = Cert.AttnSpec.rowMax (Cert.AttnSpec.logitR (Qrow x0 x1 x2 b) h s) := by
  unfold val_main_v16
  refine (Host.reduce_eq_fold_single (α := Ideal .f32) FloatOps.maximumf (val_main_v15 (F := Ideal) x0 x1 x2) (val_main_cst_0 (F := Ideal))
    reducesTo_S2600x8x64x64_S2600x8x64_d3 hred h_S_ (ix3 b h s)).trans ?_
  have hf : (val_main_v15 (F := Ideal) x0 x1 x2 ∘ hred.lift (ix3 b h s)) = fun k : Fin 64 => Cert.AttnSpec.logitR (Qrow x0 x1 x2 b) h s k :=
    funext fun k => (congrArg (val_main_v15 (F := Ideal) x0 x1 x2) (lift_eq b h s k)).trans (v15_eq x0 x1 x2 b h s _)
  unfold Cert.AttnSpec.rowMax
  exact congrArg (fun f => Finset.fold max Cert.AttnSpec.negInf f (Finset.univ : Finset (Fin 64))) hf

/-- The maximum with the broadcast `-∞` changes nothing: the fold already starts from `-∞`. -/
private theorem v18_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s : Fin 64) :
    val_main_v18 (F := Ideal) x0 x1 x2 (ix3 b h s) = Cert.AttnSpec.rowMax (Cert.AttnSpec.logitR (Qrow x0 x1 x2 b) h s) := by
  rw [val_main_v18_apply, val_main_v17_apply, val_main_cst_1_apply, v16_eq]
  show max Cert.AttnSpec.negInf (Cert.AttnSpec.rowMax _) = _
  unfold Cert.AttnSpec.rowMax
  exact max_eq_right ((Finset.le_fold_max _).mpr (Or.inl le_rfl))

/-! ## The softmax -/

/-- The exponential of a logit less its row maximum. -/
private theorem v22_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s u : Fin 64) :
    val_main_v22 (F := Ideal) x0 x1 x2 (ix4 b h s u)
      = Ideal.exp (Cert.AttnSpec.logitR (Qrow x0 x1 x2 b) h s u - Cert.AttnSpec.rowMax (Cert.AttnSpec.logitR (Qrow x0 x1 x2 b) h s)) := by
  have e : idx_main_v19 (idx_main_v20 (ix4 b h s u)) = ix3 b h s := funext fun a => Fin.ext (by
    match a with
    | ⟨0, _⟩ => rfl
    | ⟨1, _⟩ => rfl
    | ⟨2, _⟩ => rfl)
  rw [val_main_v22_apply, val_main_v21_apply, val_main_v20_apply, val_main_v19_apply, e, v18_eq, v15_eq]
  rfl

/-- The sum of the exponentials of a row. -/
private theorem v23_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s : Fin 64) :
    val_main_v23 (F := Ideal) x0 x1 x2 (ix3 b h s)
      = ∑ u : Fin 64, Ideal.exp (Cert.AttnSpec.logitR (Qrow x0 x1 x2 b) h s u - Cert.AttnSpec.rowMax (Cert.AttnSpec.logitR (Qrow x0 x1 x2 b) h s)) := by
  rw [val_main_v23_apply, val_main_cst_2_apply]
  show Ideal.ofBits .f32 0x00000000#32 + _ = _
  rw [Ideal.ofBits_zero_f32, zero_add]
  refine Finset.sum_congr rfl fun k _ => ?_
  have e : idx_main_v23 (ix3 b h s) k = ix4 b h s k := funext fun a => Fin.ext (by
    match a with
    | ⟨0, _⟩ => rfl
    | ⟨1, _⟩ => rfl
    | ⟨2, _⟩ => rfl
    | ⟨3, _⟩ => rfl)
  rw [e, v22_eq]

/-- The softmax weights of head `h` at query position `s`. -/
private theorem v26_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s u : Fin 64) :
    val_main_v26 (F := Ideal) x0 x1 x2 (ix4 b h s u) = Cert.AttnSpec.soft (Cert.AttnSpec.logitR (Qrow x0 x1 x2 b) h s) u := by
  have e : idx_main_v24 (idx_main_v25 (ix4 b h s u)) = ix3 b h s := funext fun a => Fin.ext (by
    match a with
    | ⟨0, _⟩ => rfl
    | ⟨1, _⟩ => rfl
    | ⟨2, _⟩ => rfl)
  rw [val_main_v26_apply, val_main_v25_apply, val_main_v24_apply, e, v23_eq, v22_eq]
  rfl

/-! ## The weighted values, the heads side by side, and the output projection -/

/-- The attention output of head `h` at (s, lane). -/
private theorem v27_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (h : Fin 8) (s : Fin 64) (j : Fin 32) :
    val_main_v27 (F := Ideal) x0 x1 x2 (ix4 b h s j)
      = Cert.AttnSpec.ctx (Qrow x0 x1 x2 b) (Cert.AttnSpec.logitR (Qrow x0 x1 x2 b)) s h j := by
  rw [val_main_v27_apply]
  unfold Cert.AttnSpec.ctx
  have el : ∀ k : Fin 64, lidx_main_v27 (ix4 b h s j) k = ix4 b h s k := fun k => funext fun a => Fin.ext (by
    match a with
    | ⟨0, _⟩ => rfl
    | ⟨1, _⟩ => rfl
    | ⟨2, _⟩ => rfl
    | ⟨3, _⟩ => rfl)
  have er : ∀ k : Fin 64, ridx_main_v27 (ix4 b h s j) k = ix4 b h k j := fun k => funext fun a => Fin.ext (by
    match a with
    | ⟨0, _⟩ => rfl
    | ⟨1, _⟩ => rfl
    | ⟨2, _⟩ => rfl
    | ⟨3, _⟩ => rfl)
  refine Finset.sum_congr rfl fun k _ => ?_
  rw [el, er, v26_eq, v12_eq]

/-- The heads laid side by side: model-width column `d` is lane `d % 32` of head `d / 32`. -/
private theorem v29_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (b : Fin 2600) (s : Fin 64) (d : Fin 256) :
    val_main_v29 (F := Ideal) x0 x1 x2 (ix3 b s d)
      = Cert.AttnSpec.merged (Qrow x0 x1 x2 b) (Cert.AttnSpec.logitR (Qrow x0 x1 x2 b)) s d := by
  have hb := b.isLt; have hs := s.isLt; have hd := d.isLt
  have e29 : idx_main_v29 (ix3 b s d) = ix4 b s (Cert.AttnSpec.headOf d) (Cert.AttnSpec.laneOf d) := funext fun a => Fin.ext (by
    match a with
    | ⟨0, _⟩ =>
      show ((b.val * 64 + s.val) * 256 + d.val) / 16384 = b.val
      omega
    | ⟨1, _⟩ =>
      show ((b.val * 64 + s.val) * 256 + d.val) / 256 % 64 = s.val
      omega
    | ⟨2, _⟩ =>
      show ((b.val * 64 + s.val) * 256 + d.val) / 32 % 8 = d.val / 32
      omega
    | ⟨3, _⟩ =>
      show ((b.val * 64 + s.val) * 256 + d.val) % 32 = d.val % 32
      omega)
  have e28 : idx_main_v28 (ix4 b s (Cert.AttnSpec.headOf d) (Cert.AttnSpec.laneOf d)) = ix4 b (Cert.AttnSpec.headOf d) s (Cert.AttnSpec.laneOf d) :=
    funext fun a => Fin.ext (by
      match a with
      | ⟨0, _⟩ => rfl
      | ⟨1, _⟩ => rfl
      | ⟨2, _⟩ => rfl
      | ⟨3, _⟩ => rfl)
  rw [val_main_v29_apply, e29, val_main_v28_apply, e28, v27_eq]
  rfl

theorem ref_eq (x0 : (⟨S8x325x64x256, .f32⟩ : BufTy).Contents (Elt Ideal)) (x1 : (⟨S768x256, .f32⟩ : BufTy).Contents (Elt Ideal))
    (x2 : (⟨S768, .f32⟩ : BufTy).Contents (Elt Ideal)) (x3 : (⟨S256x256, .f32⟩ : BufTy).Contents (Elt Ideal))
    (x4 : (⟨S256, .f32⟩ : BufTy).Contents (Elt Ideal)) :
    val_main_v33 (F := Ideal) x0 x1 x2 x3 x4 = Cert.AttnSpec.attnR (val_main_v0 (F := Ideal) x0) x1 x2 x3 x4 := by
  funext i
  obtain ⟨b, s, e, rfl⟩ : ∃ (b : Fin 2600) (s : Fin 64) (e : Fin 256), i = ix3 b s e := ⟨i 0, i 1, i 2, eq_ix3 i⟩
  rw [val_main_v33_apply, val_main_v30_apply, val_main_v32_apply, val_main_v31_apply]
  show (∑ k : Fin 256, _) + _ = Cert.AttnSpec.rowR (fun s d => val_main_v0 (F := Ideal) x0 (ix3 b s d)) (fun e d => x1 (ix2 e d))
    (fun e => x2 (ix1 e)) (fun e d => x3 (ix2 e d)) (fun e => x4 (ix1 e)) s e
  unfold Cert.AttnSpec.rowR Cert.AttnSpec.proj
  have el : ∀ k : Fin 256, lidx_main_v30 (ix3 b s e) k = ix3 b s k := fun k => funext fun a => Fin.ext (by
    match a with
    | ⟨0, _⟩ => rfl
    | ⟨1, _⟩ => rfl
    | ⟨2, _⟩ => rfl)
  have er : ∀ k : Fin 256, ridx_main_v30 (ix3 b s e) k = ix2 e k := fun k => funext fun a => Fin.ext (by
    match a with
    | ⟨0, _⟩ => rfl
    | ⟨1, _⟩ => rfl)
  have eb : idx_main_v31 (idx_main_v32 (ix3 b s e)) = ix1 e := funext fun a => Fin.ext (by
    match a with
    | ⟨0, _⟩ => rfl)
  rw [eb]
  refine congrArg (· + x4 (ix1 e)) (Finset.sum_congr rfl fun k _ => ?_)
  rw [el, er, v29_eq]

end Cert.ReferenceIdeal.RefValue

end
-- ==== Proof.Finite.lean ====
/-
  The precondition read back: when every entry of the five arguments has absolute value below `+∞` — what the
  printed predicate computes, entry by entry, and folds with `and` — every entry is a real number.
-/
import proofs.«400726_j29420525978033_3_alg».proof.Pre_finite_inputs
import proofs.«400726_j29420525978033_3_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs Cert.Pre_finite_inputs.Gen

/-- An extended real whose absolute value compares below the f32 pattern of `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton S_.Idx := ⟨fun a b => funext fun d => d.elim0⟩

/-- The predicate all ones: the activations, the fused weight and its bias hold real numbers. -/
theorem real_of_pre (x0 : FVec Ideal S8x325x64x256 .f32) (x1 : FVec Ideal S768x256 .f32) (x2 : FVec Ideal S768 .f32)
    (x3 : FVec Ideal S256x256 .f32) (x4 : FVec Ideal S256 .f32)
    (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn, fn_part1] at h0
  obtain ⟨h18, -⟩ := IntOp.andi_eq_one.1 h0
  obtain ⟨h13, -⟩ := IntOp.andi_eq_one.1 h18
  obtain ⟨h8, h12⟩ := IntOp.andi_eq_one.1 h13
  obtain ⟨h3, h7⟩ := IntOp.andi_eq_one.1 h8
  refine ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i)⟩

end Cert.FiniteInputs

end
-- ==== Proof.lean ====
/-
  A multi-head self-attention layer (8 heads of width 32 over a model width of 256, sequences of 64 positions, 2600
  batch rows): a fused query/key/value projection, scaled query–key logits, a softmax over the key position, the
  weighted sum of the values, and an output projection.

  The kernel computes it 26 batch rows at a time over a grid of 100 points, scaling the queries by the f32 word nearest
  `32^(-1/2)` before the query–key product; the reference computes it on the whole array and scales the product. On
  the extended reals the two are one function when the projected queries and keys are real numbers, which finite inputs
  give: the scale then moves across the finite sum over the head width by distributivity. Every other step — the
  projections, the maximum taken from `-∞`, the exponentials, their sum, the quotient, the weighted sum — is the same
  expression on both sides, and changes of float format are the identity.

  `AttnSpec` states the layer on one batch row in both forms and proves them equal on real inputs; `KernelFused`,
  `KernelAttend` and `KernelBlock` read the kernel body's output block entry by entry as that function of its input
  blocks; `KernelValue` reads the blocks off the arrays, shows the 100 blocks tile the result and carries it through
  the final reshape; `RefValue` reads the reference's operations as the same function with the product scaled;
  `Finite` reads the precondition back as "every entry is a real number".
-/
import proofs.«400726_j29420525978033_3_alg».proof.Defs
import proofs.«400726_j29420525978033_3_alg».proof.Proof.Gen.Kernel
import proofs.«400726_j29420525978033_3_alg».proof.Proof.Gen.Kernel.Frame
import proofs.«400726_j29420525978033_3_alg».proof.Proof.Gen.KernelIdeal
import proofs.«400726_j29420525978033_3_alg».proof.Proof.Gen.KernelIdeal.Frame
import proofs.«400726_j29420525978033_3_alg».proof.Proof.Gen.ReferenceIdeal
import proofs.«400726_j29420525978033_3_alg».proof.Proof.Gen.ReferenceIdeal.Run
import proofs.«400726_j29420525978033_3_alg».proof.Proof.Gen.ReferenceIdeal.Read
import proofs.«400726_j29420525978033_3_alg».proof.Proof.Gen.Pre_finite_inputs
import proofs.«400726_j29420525978033_3_alg».proof.Proof.AttnSpec
import proofs.«400726_j29420525978033_3_alg».proof.Proof.KernelValue
import proofs.«400726_j29420525978033_3_alg».proof.Proof.RefValue
import proofs.«400726_j29420525978033_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's result laid out as [8, 325, 64, 256]: the kernel's with the queries scaled, the
    reference's with the products scaled, equal because the finite inputs make the projected values real. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  obtain ⟨r0, r1, r2⟩ := Cert.FiniteInputs.real_of_pre _ _ _ _ _ (hpre c)
  rw [Cert.ReferenceIdeal.Read.val_main_v34_eq, a0, a1, a2, a3, a4]
  unfold Cert.ReferenceIdeal.Read.val_main_v34
  rw [Cert.ReferenceIdeal.RefValue.ref_eq]
  show _ = Cert.KernelIdeal.Whole.result m c
  unfold Cert.KernelIdeal.Whole.result Cert.KernelIdeal.Whole.G
  rw [Cert.AttnSpec.attnK_eq_attnR _ _ _ _ _ (fun i => by unfold shapeCast; exact r0 _) r1 r2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
